-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S12x197x197 .f32 .bf16
  ∧ IdealRules.truncf_extf.Statement Cert.KernelIdeal.S12x197x197 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S2304x768 : Shape := ⟨2, ![2304, 768]⟩
abbrev S10x768 : Shape := ⟨2, ![10, 768]⟩
abbrev S732x12 : Shape := ⟨2, ![732, 12]⟩
abbrev S768x768 : Shape := ⟨2, ![768, 768]⟩
abbrev S64 : Shape := ⟨1, ![64]⟩
abbrev S197x197 : Shape := ⟨2, ![197, 197]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S10x768 : S_.BroadcastsInDim S10x768 (![] : Fin 0 → Fin S10x768.rank)
  reducesTo_S10x768_S_d0_1 : S10x768.ReducesTo [0, 1] S_
  bcast_S_S732x12 : S_.BroadcastsInDim S732x12 (![] : Fin 0 → Fin S732x12.rank)
  reducesTo_S732x12_S_d0_1 : S732x12.ReducesTo [0, 1] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S732x12 .f32) (main_arg5 : FVec F S768x768 .f32) (main_arg6 : FVec F S10x768 .f32) (main_v13 : IVec S_ 1) (main_v16 : IVec S10x768 1) : IVec S_ 1 :=
  let main_c_5 : IVec S_ 1 := constantI S_ 1 1#1
  let main_v17 : IVec S_ 1 := (fun x v => Host.reduce IntOp.andi x v reducesTo_S10x768_S_d0_1 h_S_) main_v16 main_c_5
  let main_v18 : IVec S_ 1 := andi main_v13 main_v17
  let main_v19 : FVec F S732x12 .f32 := Host.absf main_arg4
  let main_cst_6 : FVec F S_ .f32 := constant S_ .f32 0x7F800000#32
  let main_v20 : FVec F S732x12 .f32 := broadcastInDim S732x12 ![] bcast_S_S732x12 main_cst_6
  let main_v21 : IVec S732x12 1 := cmpf .olt main_v19 main_v20
  let main_c_7 : IVec S_ 1 := constantI S_ 1 1#1
  let main_v22 : IVec S_ 1 := (fun x v => Host.reduce IntOp.andi x v reducesTo_S732x12_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S10x768 .f32 := Host.absf main_arg6
  let main_cst_10 : FVec F S_ .f32 := constant S_ .f32 0x7F800000#32
  let main_v30 : FVec F S10x768 .f32 := broadcastInDim S10x768 ![] bcast_S_S10x768 main_cst_10
  let main_v31 : IVec S10x768 1 := cmpf .olt main_v29 main_v30
  let main_c_11 : IVec S_ 1 := constantI S_ 1 1#1
  let main_v32 : IVec S_ 1 := (fun x v => Host.reduce IntOp.andi x v reducesTo_S10x768_S_d0_1 h_S_) main_v31 main_c_11
  let main_v33 : IVec S_ 1 := andi main_v28 main_v32
  main_v33

def fn {F : FTy → Type} [FloatOps F] (main_arg0 : FVec F S64x197x768 .f32) (main_arg1 : FVec F S2304x768 .f32) (main_arg2 : FVec F S10x768 .f32) (main_arg3 : FVec F S10x768 .f32) (main_arg4 : FVec F S732x12 .f32) (main_arg5 : FVec F S768x768 .f32) (main_arg6 : FVec F S10x768 .f32) (main_arg7 : IVec S64 32) (main_arg8 : IVec S197x197 32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S10x768 .f32 := Host.absf main_arg2
  let main_cst_2 : FVec F S_ .f32 := constant S_ .f32 0x7F800000#32
  let main_v10 : FVec F S10x768 .f32 := broadcastInDim S10x768 ![] bcast_S_S10x768 main_cst_2
  let main_v11 : IVec S10x768 1 := cmpf .olt main_v9 main_v10
  let main_c_3 : IVec S_ 1 := constantI S_ 1 1#1
  let main_v12 : IVec S_ 1 := (fun x v => Host.reduce IntOp.andi x v reducesTo_S10x768_S_d0_1 h_S_) main_v11 main_c_3
  let main_v13 : IVec S_ 1 := andi main_v8 main_v12
  let main_v14 : FVec F S10x768 .f32 := Host.absf main_arg3
  let main_cst_4 : FVec F S_ .f32 := constant S_ .f32 0x7F800000#32
  let main_v15 : FVec F S10x768 .f32 := broadcastInDim S10x768 ![] bcast_S_S10x768 main_cst_4
  let main_v16 : IVec S10x768 1 := cmpf .olt main_v14 main_v15
  fn_part1 (F := F) main_arg4 main_arg5 main_arg6 main_v13 main_v16
-- ==== Kernel.lean ====
abbrev S64x197x768 : Shape := ⟨3, ![64, 197, 768]⟩
abbrev S2304x768 : Shape := ⟨2, ![2304, 768]⟩
abbrev S10x768 : Shape := ⟨2, ![10, 768]⟩
abbrev S732x12 : Shape := ⟨2, ![732, 12]⟩
abbrev S768x768 : Shape := ⟨2, ![768, 768]⟩
abbrev S64 : Shape := ⟨1, ![64]⟩
abbrev S197x197 : Shape := ⟨2, ![197, 197]⟩
abbrev S_ : Shape := ⟨0, ![]⟩
abbrev S64x1 : Shape := ⟨2, ![64, 1]⟩
abbrev S64x768 : Shape := ⟨2, ![64, 768]⟩
abbrev S64x1x768 : Shape := ⟨3, ![64, 1, 768]⟩
abbrev S38809 : Shape := ⟨1, ![38809]⟩
abbrev S38809x1 : Shape := ⟨2, ![38809, 1]⟩
abbrev S38809x12 : Shape := ⟨2, ![38809, 12]⟩
abbrev S197x197x12 : Shape := ⟨3, ![197, 197, 12]⟩
abbrev S12x197x197 : Shape := ⟨3, ![12, 197, 197]⟩
abbrev S2x197x768 : Shape := ⟨3, ![2, 197, 768]⟩
abbrev S2x1x768 : Shape := ⟨3, ![2, 1, 768]⟩
abbrev S1x197x768 : Shape := ⟨3, ![1, 197, 768]⟩
abbrev S197x768 : Shape := ⟨2, ![197, 768]⟩
abbrev S197x2304 : Shape := ⟨2, ![197, 2304]⟩
abbrev S1x1x768 : Shape := ⟨3, ![1, 1, 768]⟩
abbrev S768 : Shape := ⟨1, ![768]⟩
abbrev S1x768 : Shape := ⟨2, ![1, 768]⟩
abbrev S197x12x64 : Shape := ⟨3, ![197, 12, 64]⟩
abbrev S12x197x64 : Shape := ⟨3, ![12, 197, 64]⟩
abbrev S12x197 : Shape := ⟨2, ![12, 197]⟩
abbrev S12x197x1 : Shape := ⟨3, ![12, 197, 1]⟩

abbrev nBuf : Space → Nat
  | .hbm => 54
  | .vmem => 13
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S10x768, .f32⟩
  | .hbm, ⟨3, _⟩ => ⟨S10x768, .f32⟩
  | .hbm, ⟨4, _⟩ => ⟨S732x12, .f32⟩
  | .hbm, ⟨5, _⟩ => ⟨S768x768, .f32⟩
  | .hbm, ⟨6, _⟩ => ⟨S10x768, .f32⟩
  | .hbm, ⟨7, _⟩ => ⟨S64, .i32⟩
  | .hbm, ⟨8, _⟩ => ⟨S197x197, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x768, .f32⟩
  | .hbm, ⟨18, _⟩ => ⟨S64x1x768, .f32⟩
  | .hbm, ⟨19, _⟩ => ⟨S_, .i32⟩
  | .hbm, ⟨20, _⟩ => ⟨S64, .i32⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S64x1, .i32⟩
  | .hbm, ⟨27, _⟩ => ⟨S64x768, .f32⟩
  | .hbm, ⟨28, _⟩ => ⟨S64x1x768, .f32⟩
  | .hbm, ⟨29, _⟩ => ⟨S_, .i32⟩
  | .hbm, ⟨30, _⟩ => ⟨S64, .i32⟩
  | .hbm, ⟨31, _⟩ => ⟨S64, .i1⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S64x768, .f32⟩
  | .hbm, ⟨38, _⟩ => ⟨S64x1x768, .f32⟩
  | .hbm, ⟨39, _⟩ => ⟨S38809, .i32⟩
  | .hbm, ⟨40, _⟩ => ⟨S_, .i32⟩
  | .hbm, ⟨41, _⟩ => ⟨S38809, .i32⟩
  | .hbm, ⟨42, _⟩ => ⟨S38809, .i1⟩
  | .hbm, ⟨43, _⟩ => ⟨S_, .i32⟩
  | .hbm, ⟨44, _⟩ => ⟨S38809, .i32⟩
  | .hbm, ⟨45, _⟩ => ⟨S38809, .i32⟩
  | .hbm, ⟨46, _⟩ => ⟨S38809, .i32⟩
  | .hbm, ⟨47, _⟩ => ⟨S38809x1, .i32⟩
  | .hbm, ⟨48, _⟩ => ⟨S38809x12, .f32⟩
  | .hbm, ⟨49, _⟩ => ⟨S197x197x12, .f32⟩
  | .hbm, ⟨50, _⟩ => ⟨S12x197x197, .f32⟩
  | .hbm, ⟨51, _⟩ => ⟨S2304x768, .bf16⟩
  | .hbm, ⟨52, _⟩ => ⟨S768x768, .bf16⟩
  | .hbm, ⟨53, _⟩ => ⟨S64x197x768, .f32⟩
  | .local _ .vmem, ⟨0, _⟩ => ⟨S2x197x768, .f32⟩
  | .local _ .vmem, ⟨1, _⟩ => ⟨S2x197x768, .f32⟩
  | .local _ .vmem, ⟨2, _⟩ => ⟨S2304x768, .bf16⟩
  | .local _ .vmem, ⟨3, _⟩ => ⟨S2x1x768, .f32⟩
  | .local _ .vmem, ⟨4, _⟩ => ⟨S2x1x768, .f32⟩
  | .local _ .vmem, ⟨5, _⟩ => ⟨S2x1x768, .f32⟩
  | .local _ .vmem, ⟨6, _⟩ => ⟨S2x1x768, .f32⟩
  | .local _ .vmem, ⟨7, _⟩ => ⟨S12x197x197, .f32⟩
  | .local _ .vmem, ⟨8, _⟩ => ⟨S768x768, .bf16⟩
  | .local _ .vmem, ⟨9, _⟩ => ⟨S2x1x768, .f32⟩
  | .local _ .vmem, ⟨10, _⟩ => ⟨S2x1x768, .f32⟩
  | .local _ .vmem, ⟨11, _⟩ => ⟨S2x197x768, .f32⟩
  | .local _ .vmem, ⟨12, _⟩ => ⟨S2x197x768, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x197x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S12x197x197 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x197x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x768_S64x1x768_0_2 : S64x768.BroadcastsInDim S64x1x768 (![0, 2] : Fin 2 → Fin S64x1x768.rank)
  shapeCasts_S197x197_S38809 : S197x197.ShapeCasts S38809
  bcast_S_S38809 : S_.BroadcastsInDim S38809 (![] : Fin 0 → Fin S38809.rank)
  bcast_S38809_S38809x1_0 : S38809.BroadcastsInDim S38809x1 (![0] : Fin 1 → Fin S38809x1.rank)
  shapeCasts_S38809x12_S197x197x12 : S38809x12.ShapeCasts S197x197x12
  transposes_S197x197x12_S12x197x197_2_0_1 : S197x197x12.Transposes [2, 0, 1] S12x197x197
  bitsLt_bf16_f32 : FTy.bits .bf16 < FTy.bits .f32
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S12x197x197_S12x197x197_0_0_0 : ∀ a, (![0, 0, 0] : Fin 3 → Nat) a + S12x197x197.size a ≤ S12x197x197.size a
  h_S12x197x197 : 0 < S12x197x197.numel
  shapeCasts_S12x197x197_S12x197x197 : S12x197x197.ShapeCasts S12x197x197
  inb_S2x197x768_S1x197x768_0_0_0 : ∀ a, (![0, 0, 0] : Fin 3 → Nat) a + S1x197x768.size a ≤ S2x197x768.size a
  h_S1x197x768 : 0 < S1x197x768.numel
  shapeCasts_S1x197x768_S197x768 : S1x197x768.ShapeCasts S197x768
  inb_S2x1x768_S1x1x768_0_0_0 : ∀ a, (![0, 0, 0] : Fin 3 → Nat) a + S1x1x768.size a ≤ S2x1x768.size a
  h_S1x1x768 : 0 < S1x1x768.numel
  shapeCasts_S1x1x768_S768 : S1x1x768.ShapeCasts S768
  slices_S197x2304_o0_0_S197x768 : S197x2304.Slices ![0, 0] S197x768
  shapeCasts_S768_S1x768 : S768.ShapeCasts S1x768
  broadcasts_S1x768_S197x768 : S1x768.Broadcasts S197x768
  slices_S197x2304_o0_768_S197x768 : S197x2304.Slices ![0, 768] S197x768
  slices_S197x2304_o0_1536_S197x768 : S197x2304.Slices ![0, 1536] S197x768
  shapeCasts_S197x768_S197x12x64 : S197x768.ShapeCasts S197x12x64
  transposes_S197x12x64_p1_0_2_S12x197x64 : S197x12x64.Transposes [1, 0, 2] S12x197x64
  reduces_S12x197x197_S12x197 : S12x197x197.Reduces [2] S12x197
  shapeCasts_S12x197_S12x197x1 : S12x197.ShapeCasts S12x197x1
  broadcasts_S12x197x1_S12x197x197 : S12x197x1.Broadcasts S12x197x197
  broadcasts_S12x197x1_S12x197x64 : S12x197x1.Broadcasts S12x197x64
  transposes_S12x197x64_p1_0_2_S197x12x64 : S12x197x64.Transposes [1, 0, 2] S197x12x64
  shapeCasts_S197x12x64_S197x768 : S197x12x64.ShapeCasts S197x768
  shapeCasts_S197x768_S1x197x768 : S197x768.ShapeCasts S1x197x768
  inb_S2x197x768_S1x197x768_1_0_0 : ∀ a, (![1, 0, 0] : Fin 3 → Nat) a + S1x197x768.size a ≤ S2x197x768.size a
  inb_S2x1x768_S1x1x768_1_0_0 : ∀ a, (![1, 0, 0] : Fin 3 → Nat) a + S1x1x768.size a ≤ S2x1x768.size a
  gather_S10x768_S64x1_S64x768_1_0_n_n_0_1_1768_wf : GatherDims.WF S10x768 S64x1 S64x768 [1] [0] [] [0] [] 1 ![1, 768]
  gather_S732x12_S38809x1_S38809x12_1_0_n_n_0_1_112_wf : GatherDims.WF S732x12 S38809x1 S38809x12 [1] [0] [] [0] [] 1 ![1, 12]
  dot_S197x768_S2304x768_S197x2304_1_1_0_0_n_n_wf : DotDims.WF S197x768 S2304x768 S197x2304 [1] [1] [0] [0] [] []
  dot_S12x197x64_S12x197x64_S12x197x197_2_2_1_1_0_0_wf : DotDims.WF S12x197x64 S12x197x64 S12x197x197 [2] [2] [1] [1] [0] [0]
  dot_S12x197x197_S12x197x64_S12x197x64_2_1_1_2_0_0_wf : DotDims.WF S12x197x197 S12x197x64 S12x197x64 [2] [1] [1] [2] [0] [0]
  dot_S197x768_S768x768_S197x768_1_1_0_0_n_n_wf : DotDims.WF S197x768 S768x768 S197x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x197x768.size a ≤ S64x197x768.size a
  hwx0_0 : ∀ i : grid0.Coords, EltTy.bits .f32 = 32 ∨ (Rect.block (s := S64x197x768) S2x197x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x768.size a ≤ S64x1x768.size a
  hwx0_2 : ∀ i : grid0.Coords, EltTy.bits .f32 = 32 ∨ (Rect.block (s := S64x1x768) S2x1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x768.size a ≤ S64x1x768.size a
  hwx0_3 : ∀ i : grid0.Coords, EltTy.bits .f32 = 32 ∨ (Rect.block (s := S64x1x768) S2x1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x197x197.size a ≤ S12x197x197.size a
  hwx0_4 : ∀ i : grid0.Coords, EltTy.bits .f32 = 32 ∨ (Rect.block (s := S12x197x197) S12x197x197.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x768.size a ≤ S64x1x768.size a
  hwx0_6 : ∀ i : grid0.Coords, EltTy.bits .f32 = 32 ∨ (Rect.block (s := S64x1x768) S2x1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x197x768.size a ≤ S64x197x768.size a
  hwx0_7 : ∀ i : grid0.Coords, EltTy.bits .f32 = 32 ∨ (Rect.block (s := S64x197x768) S2x197x768.size (cc0_transform_7 i) (hinb0_7 i)).WholeWords (EltTy.packing .f32)

variable [Facts₀]

def gather_S10x768_S64x1_S64x768_1_0_n_n_0_1_1768 : GatherDims S10x768 S64x1 S64x768 where
  offsetDims := [1]
  collapsedSliceDims := [0]
  operandBatchingDims := []
  startIndicesBatchingDims := []
  startIndexMap := [0]
  indexVectorDim := 1
  sliceSizes := ![1, 768]
  wf := gather_S10x768_S64x1_S64x768_1_0_n_n_0_1_1768_wf
def gather_S732x12_S38809x1_S38809x12_1_0_n_n_0_1_112 : GatherDims S732x12 S38809x1 S38809x12 where
  offsetDims := [1]
  collapsedSliceDims := [0]
  operandBatchingDims := []
  startIndicesBatchingDims := []
  startIndexMap := [0]
  indexVectorDim := 1
  sliceSizes := ![1, 12]
  wf := gather_S732x12_S38809x1_S38809x12_1_0_n_n_0_1_112_wf
def dot_S197x768_S2304x768_S197x2304_1_1_0_0_n_n : DotDims S197x768 S2304x768 S197x2304 where
  lhsContracting := [1]
  rhsContracting := [1]
  lhsNonContracting := [0]
  rhsNonContracting := [0]
  lhsBatch := []
  rhsBatch := []
  wf := dot_S197x768_S2304x768_S197x2304_1_1_0_0_n_n_wf
def dot_S12x197x64_S12x197x64_S12x197x197_2_2_1_1_0_0 : DotDims S12x197x64 S12x197x64 S12x197x197 where
  lhsContracting := [2]
  rhsContracting := [2]
  lhsNonContracting := [1]
  rhsNonContracting := [1]
  lhsBatch := [0]
  rhsBatch := [0]
  wf := dot_S12x197x64_S12x197x64_S12x197x197_2_2_1_1_0_0_wf
def dot_S12x197x197_S12x197x64_S12x197x64_2_1_1_2_0_0 : DotDims S12x197x197 S12x197x64 S12x197x64 where
  lhsContracting := [2]
  rhsContracting := [1]
  lhsNonContracting := [1]
  rhsNonContracting := [2]
  lhsBatch := [0]
  rhsBatch := [0]
  wf := dot_S12x197x197_S12x197x64_S12x197x64_2_1_1_2_0_0_wf
def dot_S197x768_S768x768_S197x768_1_1_0_0_n_n : DotDims S197x768 S768x768 S197x768 where
  lhsContracting := [1]
  rhsContracting := [1]
  lhsNonContracting := [0]
  rhsNonContracting := [0]
  lhsBatch := []
  rhsBatch := []
  wf := dot_S197x768_S768x768_S197x768_1_1_0_0_n_n_wf

abbrev win0_0 : Pipeline.Window sig grid0 :=
  Pipeline.Window.ofSpec (Memref.whole main_arg0) S2x197x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2x1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2x1x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S12x197x197.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2x1x768.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36) S2x197x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x197x768 : Shape := ⟨3, ![64, 197, 768]⟩
abbrev S2304x768 : Shape := ⟨2, ![2304, 768]⟩
abbrev S10x768 : Shape := ⟨2, ![10, 768]⟩
abbrev S732x12 : Shape := ⟨2, ![732, 12]⟩
abbrev S768x768 : Shape := ⟨2, ![768, 768]⟩
abbrev S64 : Shape := ⟨1, ![64]⟩
abbrev S197x197 : Shape := ⟨2, ![197, 197]⟩
abbrev S64x197x2304 : Shape := ⟨3, ![64, 197, 2304]⟩
abbrev S_ : Shape := ⟨0, ![]⟩
abbrev S64x1 : Shape := ⟨2, ![64, 1]⟩
abbrev S64x768 : Shape := ⟨2, ![64, 768]⟩
abbrev S64x1x768 : Shape := ⟨3, ![64, 1, 768]⟩
abbrev S64x1x2304 : Shape := ⟨3, ![64, 1, 2304]⟩
abbrev S64x197x3x12x64 : Shape := ⟨5, ![64, 197, 3, 12, 64]⟩
abbrev S3x64x12x197x64 : Shape := ⟨5, ![3, 64, 12, 197, 64]⟩
abbrev S1x64x12x197x64 : Shape := ⟨5, ![1, 64, 12, 197, 64]⟩
abbrev S64x12x197x64 : Shape := ⟨4, ![64, 12, 197, 64]⟩
abbrev S64x12x197x197 : Shape := ⟨4, ![64, 12, 197, 197]⟩
abbrev S38809 : Shape := ⟨1, ![38809]⟩
abbrev S38809x1 : Shape := ⟨2, ![38809, 1]⟩
abbrev S38809x12 : Shape := ⟨2, ![38809, 12]⟩
abbrev S197x197x12 : Shape := ⟨3, ![197, 197, 12]⟩
abbrev S12x197x197 : Shape := ⟨3, ![12, 197, 197]⟩
abbrev S1x12x197x197 : Shape := ⟨4, ![1, 12, 197, 197]⟩
abbrev S64x12x197 : Shape := ⟨3, ![64, 12, 197]⟩
abbrev S64x12x197x1 : Shape := ⟨4, ![64, 12, 197, 1]⟩
abbrev S64x197x12x64 : Shape := ⟨4, ![64, 197, 12, 64]⟩

abbrev nBuf : Space → Nat
  | .hbm => 92
  | .vmem => 0
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S10x768, .f32⟩
  | .hbm, ⟨3, _⟩ => ⟨S10x768, .f32⟩
  | .hbm, ⟨4, _⟩ => ⟨S732x12, .f32⟩
  | .hbm, ⟨5, _⟩ => ⟨S768x768, .f32⟩
  | .hbm, ⟨6, _⟩ => ⟨S10x768, .f32⟩
  | .hbm, ⟨7, _⟩ => ⟨S64, .i32⟩
  | .hbm, ⟨8, _⟩ => ⟨S197x197, .i32⟩
  | .hbm, ⟨9, _⟩ => ⟨S64x197x2304, .f32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64x768, .f32⟩
  | .hbm, ⟨19, _⟩ => ⟨S64x1x768, .f32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64x768, .f32⟩
  | .hbm, ⟨29, _⟩ => ⟨S64x1x768, .f32⟩
  | .hbm, ⟨30, _⟩ => ⟨S_, .f32⟩
  | .hbm, ⟨31, _⟩ => ⟨S64x1x768, .f32⟩
  | .hbm, ⟨32, _⟩ => ⟨S64x1x2304, .f32⟩
  | .hbm, ⟨33, _⟩ => ⟨S64x197x2304, .f32⟩
  | .hbm, ⟨34, _⟩ => ⟨S64x197x2304, .f32⟩
  | .hbm, ⟨35, _⟩ => ⟨S64x197x3x12x64, .f32⟩
  | .hbm, ⟨36, _⟩ => ⟨S3x64x12x197x64, .f32⟩
  | .hbm, ⟨37, _⟩ => ⟨S1x64x12x197x64, .f32⟩
  | .hbm, ⟨38, _⟩ => ⟨S64x12x197x64, .f32⟩
  | .hbm, ⟨39, _⟩ => ⟨S1x64x12x197x64, .f32⟩
  | .hbm, ⟨40, _⟩ => ⟨S64x12x197x64, .f32⟩
  | .hbm, ⟨41, _⟩ => ⟨S1x64x12x197x64, .f32⟩
  | .hbm, ⟨42, _⟩ => ⟨S64x12x197x64, .f32⟩
  | .hbm, ⟨43, _⟩ => ⟨S_, .f32⟩
  | .hbm, ⟨44, _⟩ => ⟨S64x12x197x64, .f32⟩
  | .hbm, ⟨45, _⟩ => ⟨S64x12x197x64, .f32⟩
  | .hbm, ⟨46, _⟩ => ⟨S64x12x197x197, .f32⟩
  | .hbm, ⟨47, _⟩ => ⟨S38809, .i32⟩
  | .hbm, ⟨48, _⟩ => ⟨S_, .i32⟩
  | .hbm, ⟨49, _⟩ => ⟨S38809, .i32⟩
  | .hbm, ⟨50, _⟩ => ⟨S38809, .i1⟩
  | .hbm, ⟨51, _⟩ => ⟨S_, .i32⟩
  | .hbm, ⟨52, _⟩ => ⟨S38809, .i32⟩
  | .hbm, ⟨53, _⟩ => ⟨S38809, .i32⟩
  | .hbm, ⟨54, _⟩ => ⟨S38809, .i32⟩
  | .hbm, ⟨55, _⟩ => ⟨S38809x1, .i32⟩
  | .hbm, ⟨56, _⟩ => ⟨S38809x12, .f32⟩
  | .hbm, ⟨57, _⟩ => ⟨S197x197x12, .f32⟩
  | .hbm, ⟨58, _⟩ => ⟨S12x197x197, .f32⟩
  | .hbm, ⟨59, _⟩ => ⟨S1x12x197x197, .f32⟩
  | .hbm, ⟨60, _⟩ => ⟨S64x12x197x197, .f32⟩
  | .hbm, ⟨61, _⟩ => ⟨S64x12x197x197, .f32⟩
  | .hbm, ⟨62, _⟩ => ⟨S_, .f32⟩
  | .hbm, ⟨63, _⟩ => ⟨S64x12x197, .f32⟩
  | .hbm, ⟨64, _⟩ => ⟨S_, .f32⟩
  | .hbm, ⟨65, _⟩ => ⟨S64x12x197, .f32⟩
  | .hbm, ⟨66, _⟩ => ⟨S64x12x197, .f32⟩
  | .hbm, ⟨67, _⟩ => ⟨S64x12x197x1, .f32⟩
  | .hbm, ⟨68, _⟩ => ⟨S64x12x197x197, .f32⟩
  | .hbm, ⟨69, _⟩ => ⟨S64x12x197x197, .f32⟩
  | .hbm, ⟨70, _⟩ => ⟨S64x12x197x197, .f32⟩
  | .hbm, ⟨71, _⟩ => ⟨S_, .f32⟩
  | .hbm, ⟨72, _⟩ => ⟨S64x12x197, .f32⟩
  | .hbm, ⟨73, _⟩ => ⟨S64x12x197x1, .f32⟩
  | .hbm, ⟨74, _⟩ => ⟨S64x12x197x197, .f32⟩
  | .hbm, ⟨75, _⟩ => ⟨S64x12x197x197, .f32⟩
  | .hbm, ⟨76, _⟩ => ⟨S64x12x197x64, .f32⟩
  | .hbm, ⟨77, _⟩ => ⟨S64x197x12x64, .f32⟩
  | .hbm, ⟨78, _⟩ => ⟨S64x197x768, .f32⟩
  | .hbm, ⟨79, _⟩ => ⟨S64x197x768, .f32⟩
  | .hbm, ⟨80, _⟩ => ⟨S_, .i32⟩
  | .hbm, ⟨81, _⟩ => ⟨S64, .i32⟩
  | .hbm, ⟨82, _⟩ => ⟨S64, .i1⟩
  | .hbm, ⟨83, _⟩ => ⟨S_, .i32⟩
  | .hbm, ⟨84, _⟩ => ⟨S64, .i32⟩
  | .hbm, ⟨85, _⟩ => ⟨S64, .i32⟩
  | .hbm, ⟨86, _⟩ => ⟨S64, .i32⟩
  | .hbm, ⟨87, _⟩ => ⟨S64x1, .i32⟩
  | .hbm, ⟨88, _⟩ => ⟨S64x768, .f32⟩
  | .hbm, ⟨89, _⟩ => ⟨S64x1x768, .f32⟩
  | .hbm, ⟨90, _⟩ => ⟨S64x197x768, .f32⟩
  | .hbm, ⟨91, _⟩ => ⟨S64x197x768, .f32⟩
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_9 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x768_S64x1x768_0_2 : S64x768.BroadcastsInDim S64x1x768 (![0, 2] : Fin 2 → Fin S64x1x768.rank)
  bcast_S_S64x1x768 : S_.BroadcastsInDim S64x1x768 (![] : Fin 0 → Fin S64x1x768.rank)
  concatenates_S64x1x768_S64x1x768_S64x1x768_S64x1x2304_d2 : Shape.Concatenates [S64x1x768, S64x1x768, S64x1x768] S64x1x2304 2
  bcast_S64x1x2304_S64x197x2304_0_1_2 : S64x1x2304.BroadcastsInDim S64x197x2304 (![0, 1, 2] : Fin 3 → Fin S64x197x2304.rank)
  shapeCasts_S64x197x2304_S64x197x3x12x64 : S64x197x2304.ShapeCasts S64x197x3x12x64
  transposes_S64x197x3x12x64_S3x64x12x197x64_2_0_3_1_4 : S64x197x3x12x64.Transposes [2, 0, 3, 1, 4] S3x64x12x197x64
  slices_S3x64x12x197x64_S1x64x12x197x64_0_0_0_0_0 : S3x64x12x197x64.Slices ![0, 0, 0, 0, 0] S1x64x12x197x64
  shapeCasts_S1x64x12x197x64_S64x12x197x64 : S1x64x12x197x64.ShapeCasts S64x12x197x64
  slices_S3x64x12x197x64_S1x64x12x197x64_1_0_0_0_0 : S3x64x12x197x64.Slices ![1, 0, 0, 0, 0] S1x64x12x197x64
  slices_S3x64x12x197x64_S1x64x12x197x64_2_0_0_0_0 : S3x64x12x197x64.Slices ![2, 0, 0, 0, 0] S1x64x12x197x64
  bcast_S_S64x12x197x64 : S_.BroadcastsInDim S64x12x197x64 (![] : Fin 0 → Fin S64x12x197x64.rank)
  shapeCasts_S197x197_S38809 : S197x197.ShapeCasts S38809
  bcast_S_S38809 : S_.BroadcastsInDim S38809 (![] : Fin 0 → Fin S38809.rank)
  bcast_S38809_S38809x1_0 : S38809.BroadcastsInDim S38809x1 (![0] : Fin 1 → Fin S38809x1.rank)
  shapeCasts_S38809x12_S197x197x12 : S38809x12.ShapeCasts S197x197x12
  transposes_S197x197x12_S12x197x197_2_0_1 : S197x197x12.Transposes [2, 0, 1] S12x197x197
  bcast_S12x197x197_S1x12x197x197_1_2_3 : S12x197x197.BroadcastsInDim S1x12x197x197 (![1, 2, 3] : Fin 3 → Fin S1x12x197x197.rank)
  bcast_S1x12x197x197_S64x12x197x197_0_1_2_3 : S1x12x197x197.BroadcastsInDim S64x12x197x197 (![0, 1, 2, 3] : Fin 4 → Fin S64x12x197x197.rank)
  reducesTo_S64x12x197x197_S64x12x197_d3 : S64x12x197x197.ReducesTo [3] S64x12x197
  h_S_ : 0 < S_.numel
  bcast_S_S64x12x197 : S_.BroadcastsInDim S64x12x197 (![] : Fin 0 → Fin S64x12x197.rank)
  bcast_S64x12x197_S64x12x197x1_0_1_2 : S64x12x197.BroadcastsInDim S64x12x197x1 (![0, 1, 2] : Fin 3 → Fin S64x12x197x1.rank)
  bcast_S64x12x197x1_S64x12x197x197_0_1_2_3 : S64x12x197x1.BroadcastsInDim S64x12x197x197 (![0, 1, 2, 3] : Fin 4 → Fin S64x12x197x197.rank)
  transposes_S64x12x197x64_S64x197x12x64_0_2_1_3 : S64x12x197x64.Transposes [0, 2, 1, 3] S64x197x12x64
  shapeCasts_S64x197x12x64_S64x197x768 : S64x197x12x64.ShapeCasts S64x197x768
  bcast_S64x1x768_S64x197x768_0_1_2 : S64x1x768.BroadcastsInDim S64x197x768 (![0, 1, 2] : Fin 3 → Fin S64x197x768.rank)
  dot_S64x197x768_S2304x768_S64x197x2304_2_1_01_0_n_n_wf : DotDims.WF S64x197x768 S2304x768 S64x197x2304 [2] [1] [0, 1] [0] [] []
  gather_S10x768_S64x1_S64x768_1_0_n_n_0_1_1768_wf : GatherDims.WF S10x768 S64x1 S64x768 [1] [0] [] [0] [] 1 ![1, 768]
  dot_S64x12x197x64_S64x12x197x64_S64x12x197x197_3_3_2_2_01_01_wf : DotDims.WF S64x12x197x64 S64x12x197x64 S64x12x197x197 [3] [3] [2] [2] [0, 1] [0, 1]
  gather_S732x12_S38809x1_S38809x12_1_0_n_n_0_1_112_wf : GatherDims.WF S732x12 S38809x1 S38809x12 [1] [0] [] [0] [] 1 ![1, 12]
  dot_S64x12x197x197_S64x12x197x64_S64x12x197x64_3_2_2_3_01_01_wf : DotDims.WF S64x12x197x197 S64x12x197x64 S64x12x197x64 [3] [2] [2] [3] [0, 1] [0, 1]
  dot_S64x197x768_S768x768_S64x197x768_2_1_01_0_n_n_wf : DotDims.WF S64x197x768 S768x768 S64x197x768 [2] [1] [0, 1] [0] [] []

variable [Facts₀]

def dot_S64x197x768_S2304x768_S64x197x2304_2_1_01_0_n_n : DotDims S64x197x768 S2304x768 S64x197x2304 where
  lhsContracting := [2]
  rhsContracting := [1]
  lhsNonContracting := [0, 1]
  rhsNonContracting := [0]
  lhsBatch := []
  rhsBatch := []
  wf := dot_S64x197x768_S2304x768_S64x197x2304_2_1_01_0_n_n_wf
def gather_S10x768_S64x1_S64x768_1_0_n_n_0_1_1768 : GatherDims S10x768 S64x1 S64x768 where
  offsetDims := [1]
  collapsedSliceDims := [0]
  operandBatchingDims := []
  startIndicesBatchingDims := []
  startIndexMap := [0]
  indexVectorDim := 1
  sliceSizes := ![1, 768]
  wf := gather_S10x768_S64x1_S64x768_1_0_n_n_0_1_1768_wf
def dot_S64x12x197x64_S64x12x197x64_S64x12x197x197_3_3_2_2_01_01 : DotDims S64x12x197x64 S64x12x197x64 S64x12x197x197 where
  lhsContracting := [3]
  rhsContracting := [3]
  lhsNonContracting := [2]
  rhsNonContracting := [2]
  lhsBatch := [0, 1]
  rhsBatch := [0, 1]
  wf := dot_S64x12x197x64_S64x12x197x64_S64x12x197x197_3_3_2_2_01_01_wf
def gather_S732x12_S38809x1_S38809x12_1_0_n_n_0_1_112 : GatherDims S732x12 S38809x1 S38809x12 where
  offsetDims := [1]
  collapsedSliceDims := [0]
  operandBatchingDims := []
  startIndicesBatchingDims := []
  startIndexMap := [0]
  indexVectorDim := 1
  sliceSizes := ![1, 12]
  wf := gather_S732x12_S38809x1_S38809x12_1_0_n_n_0_1_112_wf
def dot_S64x12x197x197_S64x12x197x64_S64x12x197x64_3_2_2_3_01_01 : DotDims S64x12x197x197 S64x12x197x64 S64x12x197x64 where
  lhsContracting := [3]
  rhsContracting := [2]
  lhsNonContracting := [2]
  rhsNonContracting := [3]
  lhsBatch := [0, 1]
  rhsBatch := [0, 1]
  wf := dot_S64x12x197x197_S64x12x197x64_S64x12x197x64_3_2_2_3_01_01_wf
def dot_S64x197x768_S768x768_S64x197x768_2_1_01_0_n_n : DotDims S64x197x768 S768x768 S64x197x768 where
  lhsContracting := [2]
  rhsContracting := [1]
  lhsNonContracting := [0, 1]
  rhsNonContracting := [0]
  lhsBatch := []
  rhsBatch := []
  wf := dot_S64x197x768_S768x768_S64x197x768_2_1_01_0_n_n_wf

class Facts : Prop extends Facts₀ where

variable [Facts]
-- ==== Proof.AttnSpec.lean ====
/-
  One sample of the attention block, written index by index over plain coordinate tuples.

  From a sample's rows `X : 197 × 768`, the joint projection weight `W : 2304 × 768` (its rows are the output
  channels: query channels 0..767, key channels 768..1535, value channels 1536..2303; inside each third channel
  `h·64 + d` is head `h`, lane `d`), the sample's query and value biases `qb vb : 768`, the relative-position
  bias `R : 12 × 197 × 197`, the output projection `PW : 768 × 768` and its bias `pb : 768`:

    qkv n o   = Σ_c X n c · W o c
    Q h n d   = (qkv n (q-channel h d) + qb (h·64+d)) · scale          (scale is the word of 1/8)
    K h n d   =  qkv n (k-channel h d)
    V h n d   =  qkv n (v-channel h d) + vb (h·64+d)
    S h n m   = Σ_d Q h n d · K h m d + R h n m                         (the logits)
    M h n     = max over m of S h n m, folded from the word of −∞
    P h n m   = exp (S h n m − M h n),   L h n = Σ_m P h n m
    attention, normalised AFTER the product with V :  A h n d  = (Σ_m P h n m · V h m d) / L h n
    attention, normalised BEFORE the product with V :  A' h n d = Σ_m (P h n m / L h n) · V h m d
    out n o   = Σ_c A (c / 64) n (c % 64) · PW o c + pb o

  The two normalisations are the only place where the two programs of this certificate differ; they agree
  when every entry is a real number (the quotient distributes over the finite sum, and L ≥ 1 is not zero).
  Float literals stay as the words the programs print: the same word on both sides is never evaluated.
-/
import Idealize.ShloMosaic.PureOps.Ideal

noncomputable section

namespace Cert.Attn

open Idealize.ShloMosaic

/-- The word both programs fold the row maximum from: f32's −∞. -/
abbrev negInf : EReal := Ideal.ofBits .f32 0xFF800000#32
/-- The word both programs scale the queries by: f32's 0.125 = 64^(−1/2). -/
abbrev scale : EReal := Ideal.ofBits .f32 0x3E000000#32

/-- Channel `h·64 + d` of a 768-wide row: head `h`, lane `d`. -/
def hd (h : Fin 12) (d : Fin 64) : Fin 768 := ⟨h.val * 64 + d.val, by have := h.isLt; have := d.isLt; omega⟩
/-- Channel `s·768 + h·64 + d` of the joint 2304-wide projection: third `s` (0 query, 1 key, 2 value). -/
def col (s : Fin 3) (h : Fin 12) (d : Fin 64) : Fin 2304 :=
  ⟨s.val * 768 + h.val * 64 + d.val, by have := s.isLt; have := h.isLt; have := d.isLt; omega⟩
/-- The head of a channel, and its lane. -/
def headOf (c : Fin 768) : Fin 12 := ⟨c.val / 64, by have := c.isLt; omega⟩
def laneOf (c : Fin 768) : Fin 64 := ⟨c.val % 64, Nat.mod_lt _ (by decide)⟩

variable (X : Fin 197 → Fin 768 → EReal) (W : Fin 2304 → Fin 768 → EReal) (qb vb pb : Fin 768 → EReal)
  (R : Fin 12 → Fin 197 → Fin 197 → EReal) (PW : Fin 768 → Fin 768 → EReal)

def qkv (n : Fin 197) (o : Fin 2304) : EReal := ∑ c : Fin 768, X n c * W o c
def Q (h : Fin 12) (n : Fin 197) (d : Fin 64) : EReal := (qkv X W n (col 0 h d) + qb (hd h d)) * scale
def K (h : Fin 12) (n : Fin 197) (d : Fin 64) : EReal := qkv X W n (col 1 h d)
def V (h : Fin 12) (n : Fin 197) (d : Fin 64) : EReal := qkv X W n (col 2 h d) + vb (hd h d)
def S (h : Fin 12) (n m : Fin 197) : EReal := (∑ d : Fin 64, Q X W qb h n d * K X W h m d) + R h n m
def M (h : Fin 12) (n : Fin 197) : EReal := (Finset.univ : Finset (Fin 197)).fold max negInf (fun m => S X W qb R h n m)
def P (h : Fin 12) (n m : Fin 197) : EReal := Ideal.exp (S X W qb R h n m - M X W qb R h n)
def L (h : Fin 12) (n : Fin 197) : EReal := ∑ m : Fin 197, P X W qb R h n m
/-- Normalised after the product with `V` (the kernel's order). -/
def attnAfter (h : Fin 12) (n : Fin 197) (d : Fin 64) : EReal :=
  Ideal.div (∑ m : Fin 197, P X W qb R h n m * V X W vb h m d) (L X W qb R h n)
/-- Normalised before the product with `V` (the reference's order). -/
def attnBefore (h : Fin 12) (n : Fin 197) (d : Fin 64) : EReal :=
  ∑ m : Fin 197, Ideal.div (P X W qb R h n m) (L X W qb R h n) * V X W vb h m d
def outAfter (n : Fin 197) (o : Fin 768) : EReal :=
  (∑ c : Fin 768, attnAfter X W qb vb R (headOf c) n (laneOf c) * PW o c) + pb o
def outBefore (n : Fin 197) (o : Fin 768) : EReal :=
  (∑ c : Fin 768, attnBefore X W qb vb R (headOf c) n (laneOf c) * PW o c) + pb o

end Cert.Attn

end
-- ==== Proof.AttnLaw.lean ====
/-
  The one law that joins the two programs: for real entries the attention normalised after the product with V
  equals the attention normalised before it, so the two outputs agree.
-/
import proofs.«425020_j9560597201107_3_alg».proof.Proof.AttnSpec

noncomputable section

namespace Cert.Attn

open Idealize.ShloMosaic

/-- An extended real that is a real number. -/
private def IsReal (x : EReal) : Prop := ∃ r : ℝ, x = (r : EReal)

private theorem isReal_add {x y : EReal} (hx : IsReal x) (hy : IsReal y) : IsReal (x + y) := by
  obtain ⟨a, rfl⟩ := hx; obtain ⟨b, rfl⟩ := hy
  exact ⟨a + b, (EReal.coe_add a b).symm⟩

private theorem isReal_mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is one of them. -/
private theorem isReal_max {x y : EReal} (hx : IsReal x) (hy : IsReal y) : IsReal (max x y) := by
  rcases max_choice x y with h | h <;> rw [h] <;> assumption

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem isReal_sum {ι : Type*} (s : Finset ι) (f : ι → EReal) (h : ∀ i, IsReal (f i)) :
    IsReal (∑ i ∈ s, f i) := by
  choose g hg using h
  exact ⟨∑ i ∈ s, g i, by rw [coe_sum]; exact Finset.sum_congr rfl (fun i _ => hg i)⟩

/-- The maximum of a nonempty finite family of reals, folded from −∞, is a real: −∞ is absorbed by the
    first entry and every later step keeps one of two reals. -/
private theorem isReal_foldMax {ι : Type*} (s : Finset ι) (f : ι → EReal) (h : ∀ i, IsReal (f i))
    (hs : s.Nonempty) : IsReal (s.fold max ⊥ f) := by
  classical
  induction s using Finset.induction_on with
  | empty => exact absurd hs Finset.not_nonempty_empty
  | insert a s ha ih =>
    rw [Finset.fold_insert ha]
    rcases s.eq_empty_or_nonempty with hs' | hs'
    · subst hs'
      rw [Finset.fold_empty, max_bot_right]
      exact h a
    · exact isReal_max (h a) (ih hs')

/-- The scale word denotes a real number (1/8). -/
theorem scale_real : ∃ r : ℝ, scale = (r : EReal) := by
  refine ⟨8388608 * (1 / 67108864), ?_⟩
  simp [scale, Ideal.ofBits, Ideal.ieee]
  norm_num

private theorem negInf_eq : negInf = ⊥ := by
  simp [negInf, Ideal.ofBits, Ideal.ieee]

variable (X : Fin 197 → Fin 768 → EReal) (W : Fin 2304 → Fin 768 → EReal) (qb vb pb : Fin 768 → EReal)
  (R : Fin 12 → Fin 197 → Fin 197 → EReal) (PW : Fin 768 → Fin 768 → EReal)

/-- The two attentions agree entry by entry: every logit is real, so is the row maximum, so every weight
    `P` is a positive real and the row sum `L` is a nonzero real; dividing by it is multiplying by its
    reciprocal, which distributes over the finite sum. -/
private theorem attnAfter_eq_attnBefore
    (hX : ∀ n c, ∃ r : ℝ, X n c = (r : EReal)) (hW : ∀ o c, ∃ r : ℝ, W o c = (r : EReal))
    (hqb : ∀ c, ∃ r : ℝ, qb c = (r : EReal)) (hvb : ∀ c, ∃ r : ℝ, vb c = (r : EReal))
    (hR : ∀ h n m, ∃ r : ℝ, R h n m = (r : EReal)) (h : Fin 12) (n : Fin 197) (d : Fin 64) :
    attnAfter X W qb vb R h n d = attnBefore X W qb vb R h n d := by
  have hqkv : ∀ n o, IsReal (qkv X W n o) := fun n o => isReal_sum _ _ (fun c => isReal_mul (hX n c) (hW o c))
  have hQ : ∀ h n d, IsReal (Q X W qb h n d) := fun h n d =>
    isReal_mul (isReal_add (hqkv _ _) (hqb _)) scale_real
  have hK : ∀ h n d, IsReal (K X W h n d) := fun h n d => hqkv _ _
  have hV : ∀ h n d, IsReal (V X W vb h n d) := fun h n d => isReal_add (hqkv _ _) (hvb _)
  have hS : ∀ h n m, IsReal (S X W qb R h n m) := fun h n m =>
    isReal_add (isReal_sum _ _ (fun d => isReal_mul (hQ h n d) (hK h m d))) (hR h n m)
  have hM : IsReal (M X W qb R h n) := by
    rw [M, negInf_eq]
    exact isReal_foldMax _ _ (fun m => hS h n m) ⟨0, Finset.mem_univ _⟩
  choose s hs using hS h n
  obtain ⟨μ, hμ⟩ := hM
  choose v hv using fun m => hV h m d
  have hP : ∀ m, P X W qb R h n m = ((Real.exp (s m - μ) : ℝ) : EReal) := by
    intro m
    rw [P, hs, hμ, ← EReal.coe_sub, Ideal.exp_coe]
  have hL : L X W qb R h n = ((∑ m : Fin 197, Real.exp (s m - μ) : ℝ) : EReal) := by
    rw [L, coe_sum]
    exact Finset.sum_congr rfl (fun m _ => hP m)
  have hℓ : (∑ m : Fin 197, Real.exp (s m - μ)) ≠ 0 :=
    (Finset.sum_pos (fun m _ => Real.exp_pos _) ⟨0, Finset.mem_univ _⟩).ne'
  rw [attnAfter, attnBefore, hL]
  simp only [Ideal.div_coe hℓ, hP, hv, ← EReal.coe_mul, ← coe_sum]
  rw [Finset.sum_mul]
  exact congrArg _ (Finset.sum_congr rfl (fun m _ => by ring))

/-- With real rows, weights, biases and relative-position bias, normalising after or before the product with V
    gives the same output. -/
theorem outAfter_eq_outBefore
    (hX : ∀ n c, ∃ r : ℝ, X n c = (r : EReal)) (hW : ∀ o c, ∃ r : ℝ, W o c = (r : EReal))
    (hqb : ∀ c, ∃ r : ℝ, qb c = (r : EReal)) (hvb : ∀ c, ∃ r : ℝ, vb c = (r : EReal))
    (hR : ∀ h n m, ∃ r : ℝ, R h n m = (r : EReal)) :
    outAfter X W qb vb pb R PW = outBefore X W qb vb pb R PW := by
  funext n o
  rw [outAfter, outBefore]
  congr 1
  exact Finset.sum_congr rfl (fun c _ => by rw [attnAfter_eq_attnBefore X W qb vb R hX hW hqb hvb hR])

end Cert.Attn

end
-- ==== Proof.RefArgs.lean ====
/-
  A sample's arguments read out of the reference's whole arrays: sample b's rows, the weights, sample b's
  gathered bias rows (the gathers stay closed: both programs apply the same gather to the same tables), the
  gathered relative-position bias.
-/
import proofs.«425020_j9560597201107_3_alg».proof.Proof.Gen.ReferenceIdeal.Read
import proofs.«425020_j9560597201107_3_alg».proof.Proof.AttnSpec
import Idealize.ShloMosaic.Lib.ValueIdx

noncomputable section

namespace Cert.RefBridge

open Cert.ReferenceIdeal Cert.ReferenceIdeal.Read Idealize.ShloMosaic Idealize.ShloMosaic.ValueIdx

abbrev Xr (x0 : FVec Ideal S64x197x768 .f32) (b : Fin 64) : Fin 197 → Fin 768 → EReal := fun n c => x0 (ix3 b n c)
abbrev Wr (x1 : FVec Ideal S2304x768 .f32) : Fin 2304 → Fin 768 → EReal := fun o c => x1 (ix2 o c)
abbrev qbr (x2 : FVec Ideal S10x768 .f32) (x7 : IVec S64 32) (b : Fin 64) : Fin 768 → EReal :=
  fun c => val_main_v8 (F := Ideal) x2 x7 (ix3 b 0 c)
abbrev vbr (x3 : FVec Ideal S10x768 .f32) (x7 : IVec S64 32) (b : Fin 64) : Fin 768 → EReal :=
  fun c => val_main_v16 (F := Ideal) x3 x7 (ix3 b 0 c)
abbrev pbr (x6 : FVec Ideal S10x768 .f32) (x7 : IVec S64 32) (b : Fin 64) : Fin 768 → EReal :=
  fun c => val_main_v67 (F := Ideal) x6 x7 (ix3 b 0 c)
abbrev Rr (x4 : FVec Ideal S732x12 .f32) (x8 : IVec S197x197 32) : Fin 12 → Fin 197 → Fin 197 → EReal :=
  fun h n m => val_main_v41 (F := Ideal) x4 x8 (ix3 h n m)
abbrev PWr (x5 : FVec Ideal S768x768 .f32) : Fin 768 → Fin 768 → EReal := fun o c => x5 (ix2 o c)

end Cert.RefBridge

end
-- ==== Proof.RefHeads.lean ====
/-
  The reference's queries (scaled), keys and values per sample and head, read at (b, h, n, d): the joint projection
  plus the concatenated bias (query bias, zeros, value bias), split into thirds, heads and lanes.
-/
import proofs.«425020_j9560597201107_3_alg».proof.Proof.Gen.ReferenceIdeal.Read
import proofs.«425020_j9560597201107_3_alg».proof.Proof.AttnSpec
import proofs.«425020_j9560597201107_3_alg».proof.Proof.RefArgs
import Idealize.ShloMosaic.Lib.ValueIdx
import Idealize.ShloMosaic.Lib.ValueLayout
import Idealize.ShloMosaic.Lib.Pipeline.Value
import Idealize.ShloMosaic.PureOps.Ideal.Laws

noncomputable section

namespace Cert.RefBridge

open Cert.ReferenceIdeal Cert.ReferenceIdeal.Read Idealize.ShloMosaic Idealize.ShloMosaic.ValueIdx Cert.Attn

variable (x0 : FVec Ideal S64x197x768 .f32) (x1 : FVec Ideal S2304x768 .f32) (x2 x3 : FVec Ideal S10x768 .f32)
    (x4 : FVec Ideal S732x12 .f32) (x5 : FVec Ideal S768x768 .f32) (x6 : FVec Ideal S10x768 .f32) (x7 : IVec S64 32) (x8 : IVec S197x197 32)

/-! ## The layout chain's index equations

Each third of the joint projection is read through a reshape `[1,64,12,197,64] → [64,12,197,64]`, a slice of the
leading axis, the transpose `[2,0,3,1,4]` and the reshape `[64,197,2304] → [64,197,3,12,64]`. Read at
`(b, h, n, d)` in third `s` the chain lands on row `(b, n)`, channel `s·768 + h·64 + d`. -/

/-- The unit-axis reshape at `(b, h, n, d)` reads `(0, b, h, n, d)`: the row-major position is unchanged. -/
private theorem idx24_eq (b : Fin 64) (h : Fin 12) (n : Fin 197) (d : Fin 64) :
    idx_main_v24 (ix4 b h n d) = ix5 (0 : Fin 1) b h n d := by
  have hb := b.isLt; have hh := h.isLt; have hn := n.isLt; have hd := d.isLt
  funext a
  apply Fin.ext
  match a with
  | ⟨0, _⟩ => rfl
  | ⟨1, _⟩ =>
    show (((b.val * 12 + h.val) * 197 + n.val) * 64 + d.val) / 151296 % 64 = b.val
    omega
  | ⟨2, _⟩ =>
    show (((b.val * 12 + h.val) * 197 + n.val) * 64 + d.val) / 12608 % 12 = h.val
    omega
  | ⟨3, _⟩ =>
    show (((b.val * 12 + h.val) * 197 + n.val) * 64 + d.val) / 64 % 197 = n.val
    omega
  | ⟨4, _⟩ =>
    show (((b.val * 12 + h.val) * 197 + n.val) * 64 + d.val) % 64 = d.val
    omega

/-- The keys' and the values' unit-axis reshapes are the same function of the index. -/
private theorem idx26_eq (b : Fin 64) (h : Fin 12) (n : Fin 197) (d : Fin 64) :
    idx_main_v26 (ix4 b h n d) = ix5 (0 : Fin 1) b h n d := idx24_eq b h n d
private theorem idx28_eq (b : Fin 64) (h : Fin 12) (n : Fin 197) (d : Fin 64) :
    idx_main_v28 (ix4 b h n d) = ix5 (0 : Fin 1) b h n d := idx24_eq b h n d

/-- The slice `[0:1]` of the leading axis reads third 0 … -/
private theorem idx23_eq (b : Fin 64) (h : Fin 12) (n : Fin 197) (d : Fin 64) :
    idx_main_v23 (ix5 (0 : Fin 1) b h n d) = ix5 (0 : Fin 3) b h n d := by
  funext a
  apply Fin.ext
  match a with
  | ⟨0, _⟩ => rfl
  | ⟨1, _⟩ => rfl
  | ⟨2, _⟩ => rfl
  | ⟨3, _⟩ => rfl
  | ⟨4, _⟩ => rfl

/-- … the slice `[1:2]` third 1 … -/
private theorem idx25_eq (b : Fin 64) (h : Fin 12) (n : Fin 197) (d : Fin 64) :
    idx_main_v25 (ix5 (0 : Fin 1) b h n d) = ix5 (1 : Fin 3) b h n d := by
  funext a
  apply Fin.ext
  match a with
  | ⟨0, _⟩ => rfl
  | ⟨1, _⟩ => rfl
  | ⟨2, _⟩ => rfl
  | ⟨3, _⟩ => rfl
  | ⟨4, _⟩ => rfl

/-- … and the slice `[2:3]` third 2. -/
private theorem idx27_eq (b : Fin 64) (h : Fin 12) (n : Fin 197) (d : Fin 64) :
    idx_main_v27 (ix5 (0 : Fin 1) b h n d) = ix5 (2 : Fin 3) b h n d := by
  funext a
  apply Fin.ext
  match a with
  | ⟨0, _⟩ => rfl
  | ⟨1, _⟩ => rfl
  | ⟨2, _⟩ => rfl
  | ⟨3, _⟩ => rfl
  | ⟨4, _⟩ => rfl

/-- The transpose `[2,0,3,1,4]` at `(s, b, h, n, d)` reads `(b, n, s, h, d)`. -/
private theorem idx22_eq (s : Fin 3) (b : Fin 64) (h : Fin 12) (n : Fin 197) (d : Fin 64) :
    idx_main_v22 (ix5 s b h n d) = ix5 b n s h d := by
  funext a
  apply Fin.ext
  match a with
  | ⟨0, _⟩ => rfl
  | ⟨1, _⟩ => rfl
  | ⟨2, _⟩ => rfl
  | ⟨3, _⟩ => rfl
  | ⟨4, _⟩ => rfl

/-- The reshape `[64,197,2304] → [64,197,3,12,64]` at `(b, n, s, h, d)` reads row `(b, n)`, channel
    `s·768 + h·64 + d`. -/
private theorem idx21_eq (s : Fin 3) (b : Fin 64) (h : Fin 12) (n : Fin 197) (d : Fin 64) :
    idx_main_v21 (ix5 b n s h d) = ix3 b n (col s h d) := by
  have hs := s.isLt; have hb := b.isLt; have hh := h.isLt; have hn := n.isLt; have hd := d.isLt
  funext a
  apply Fin.ext
  match a with
  | ⟨0, _⟩ =>
    show ((((b.val * 197 + n.val) * 3 + s.val) * 12 + h.val) * 64 + d.val) / 453888 = b.val
    omega
  | ⟨1, _⟩ =>
    show ((((b.val * 197 + n.val) * 3 + s.val) * 12 + h.val) * 64 + d.val) / 2304 % 197 = n.val
    omega
  | ⟨2, _⟩ =>
    show ((((b.val * 197 + n.val) * 3 + s.val) * 12 + h.val) * 64 + d.val) % 2304 = s.val * 768 + h.val * 64 + d.val
    omega

/-- The transposed five-axis array at `(s, b, h, n, d)` is the biased joint projection at row `(b, n)`, channel
    `s·768 + h·64 + d`. -/
private theorem v22_read (s : Fin 3) (b : Fin 64) (h : Fin 12) (n : Fin 197) (d : Fin 64) :
    val_main_v22 (F := Ideal) x0 x1 x2 x3 x7 (ix5 s b h n d)
      = val_main_v20 (F := Ideal) x0 x1 x2 x3 x7 (ix3 b n (col s h d)) := by
  rw [val_main_v22_apply, idx22_eq, val_main_v21_apply, idx21_eq]

/-! ## The joint projection and its bias at a row and a channel -/

/-- The contraction's left index at `(b, n, o)`, term `k`, is `(b, n, k)` … -/
private theorem lidx0_eq (b : Fin 64) (n : Fin 197) (o : Fin 2304) (k : Fin 768) :
    lidx_main_v0 (ix3 b n o) k = ix3 b n k := by
  funext a
  apply Fin.ext
  match a with
  | ⟨0, _⟩ => rfl
  | ⟨1, _⟩ => rfl
  | ⟨2, _⟩ => rfl

/-- … and its right index is `(o, k)`. -/
private theorem ridx0_eq (b : Fin 64) (n : Fin 197) (o : Fin 2304) (k : Fin 768) :
    ridx_main_v0 (ix3 b n o) k = ix2 o k := by
  funext a
  apply Fin.ext
  match a with
  | ⟨0, _⟩ => rfl
  | ⟨1, _⟩ => rfl

/-- The bias broadcast over the 197 rows reads the one bias row. -/
private theorem idx19_eq (b : Fin 64) (n : Fin 197) (o : Fin 2304) :
    idx_main_v19 (ix3 b n o) = ix3 b (0 : Fin 1) o := by
  funext a
  apply Fin.ext
  match a with
  | ⟨0, _⟩ => rfl
  | ⟨1, _⟩ => rfl
  | ⟨2, _⟩ => rfl

/-- The biased joint projection at row `(b, n)`, channel `o`: the projection `Σ_c X n c · W o c` plus the
    concatenated bias row at `o`. -/
private theorem v20_read (b : Fin 64) (n : Fin 197) (o : Fin 2304) :
    val_main_v20 (F := Ideal) x0 x1 x2 x3 x7 (ix3 b n o)
      = qkv (Xr x0 b) (Wr x1) n o + val_main_v18 (F := Ideal) x2 x3 x7 (ix3 b (0 : Fin 1) o) := by
  rw [val_main_v20_apply, val_main_v0_apply, val_main_v19_apply, idx19_eq, Ideal.addf_def]
  simp only [lidx0_eq, ridx0_eq]
  rfl

/-! ## The concatenated bias row: query bias, zeros, value bias -/

/-- A query channel of the bias row is the query bias there. -/
private theorem bias_q (b : Fin 64) (h : Fin 12) (d : Fin 64) :
    val_main_v18 (F := Ideal) x2 x3 x7 (ix3 b (0 : Fin 1) (col 0 h d))
      = val_main_v8 (F := Ideal) x2 x7 (ix3 b (0 : Fin 1) (hd h d)) := by
  unfold val_main_v18
  refine concatenate_apply_piece _ _ _ _ 0 ?_ S64x1x768 (val_main_v8 (F := Ideal) x2 x7) ?_ ?_ 0 ?_
    (ix3 b (0 : Fin 1) (hd h d)) (fun c hc => ?_) ?_
  · show (0 : Nat) < 3
    decide
  · rfl
  · rfl
  · rfl
  · match c with
    | ⟨0, _⟩ => rfl
    | ⟨1, _⟩ => rfl
    | ⟨2, _⟩ => exact absurd rfl hc
  · show 0 + (h.val * 64 + d.val) = 0 * 768 + h.val * 64 + d.val
    omega

/-- A key channel of the bias row is zero. -/
private theorem bias_k (b : Fin 64) (h : Fin 12) (d : Fin 64) :
    val_main_v18 (F := Ideal) x2 x3 x7 (ix3 b (0 : Fin 1) (col 1 h d)) = 0 := by
  unfold val_main_v18
  refine (concatenate_apply_piece _ _ _ _ 1 ?_ S64x1x768 (val_main_v17 (F := Ideal)) ?_ ?_ 768 ?_
    (ix3 b (0 : Fin 1) (hd h d)) (fun c hc => ?_) ?_).trans ?_
  · show (1 : Nat) < 3
    decide
  · rfl
  · rfl
  · rfl
  · match c with
    | ⟨0, _⟩ => rfl
    | ⟨1, _⟩ => rfl
    | ⟨2, _⟩ => exact absurd rfl hc
  · show 768 + (h.val * 64 + d.val) = 1 * 768 + h.val * 64 + d.val
    omega
  · rw [val_main_v17_apply, val_main_cst_apply, Ideal.ofBits_def, Ideal.ofBits_zero_f32]

/-- A value channel of the bias row is the value bias there. -/
private theorem bias_v (b : Fin 64) (h : Fin 12) (d : Fin 64) :
    val_main_v18 (F := Ideal) x2 x3 x7 (ix3 b (0 : Fin 1) (col 2 h d))
      = val_main_v16 (F := Ideal) x3 x7 (ix3 b (0 : Fin 1) (hd h d)) := by
  unfold val_main_v18
  refine concatenate_apply_piece _ _ _ _ 2 ?_ S64x1x768 (val_main_v16 (F := Ideal) x3 x7) ?_ ?_ 1536 ?_
    (ix3 b (0 : Fin 1) (hd h d)) (fun c hc => ?_) ?_
  · show (2 : Nat) < 3
    decide
  · rfl
  · rfl
  · rfl
  · match c with
    | ⟨0, _⟩ => rfl
    | ⟨1, _⟩ => rfl
    | ⟨2, _⟩ => exact absurd rfl hc
  · show 1536 + (h.val * 64 + d.val) = 2 * 768 + h.val * 64 + d.val
    omega

/-- The scaled queries. -/
theorem ref_q (b : Fin 64) (h : Fin 12) (n : Fin 197) (d : Fin 64) :
    val_main_v30 (F := Ideal) x0 x1 x2 x3 x7 (ix4 b h n d) = Q (Xr x0 b) (Wr x1) (qbr x2 x7 b) h n d := by
  rw [val_main_v30_apply, val_main_v24_apply, idx24_eq, val_main_v23_apply, idx23_eq, v22_read, v20_read, bias_q,
    val_main_v29_apply, val_main_cst_3_apply, Ideal.mulf_def, Ideal.ofBits_def]
  rfl

/-- The keys (their bias is the zero third of the concatenation). -/
theorem ref_k (b : Fin 64) (h : Fin 12) (n : Fin 197) (d : Fin 64) :
    val_main_v26 (F := Ideal) x0 x1 x2 x3 x7 (ix4 b h n d) = K (Xr x0 b) (Wr x1) h n d := by
  rw [val_main_v26_apply, idx26_eq, val_main_v25_apply, idx25_eq, v22_read, v20_read, bias_k, add_zero]
  rfl

/-- The values. -/
theorem ref_v (b : Fin 64) (h : Fin 12) (n : Fin 197) (d : Fin 64) :
    val_main_v28 (F := Ideal) x0 x1 x2 x3 x7 (ix4 b h n d) = V (Xr x0 b) (Wr x1) (vbr x3 x7 b) h n d := by
  rw [val_main_v28_apply, idx28_eq, val_main_v27_apply, idx27_eq, v22_read, v20_read, bias_v]
  rfl

end Cert.RefBridge

end
-- ==== Proof.RefOut.lean ====
/-
  The reference's result at (b, n, o) is sample b's output row `outBefore … n o` of the specification: logits,
  row maximum, exponentials, their sum, the quotient BEFORE the product with the values, heads merged, the output
  projection and its gathered bias.
-/
import proofs.«425020_j9560597201107_3_alg».proof.Proof.Gen.ReferenceIdeal.Read
import proofs.«425020_j9560597201107_3_alg».proof.Proof.AttnSpec
import proofs.«425020_j9560597201107_3_alg».proof.Proof.RefArgs
import proofs.«425020_j9560597201107_3_alg».proof.Proof.RefHeads
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.RefBridge

open Cert.ReferenceIdeal Cert.ReferenceIdeal.Read Idealize.ShloMosaic Idealize.ShloMosaic.ValueIdx Cert.Attn

variable (x0 : FVec Ideal S64x197x768 .f32) (x1 : FVec Ideal S2304x768 .f32) (x2 x3 : FVec Ideal S10x768 .f32)
    (x4 : FVec Ideal S732x12 .f32) (x5 : FVec Ideal S768x768 .f32) (x6 : FVec Ideal S10x768 .f32) (x7 : IVec S64 32) (x8 : IVec S197x197 32)

/-! Index equations: the reference's index functions at coordinate tuples. -/

private theorem lidx31 (b : Fin 64) (h : Fin 12) (n m : Fin 197) (k : Fin 64) :
    lidx_main_v31 (ix4 b h n m) k = ix4 b h n k :=
  funext fun a => Fin.ext (by match a with | ⟨0, _⟩ => rfl | ⟨1, _⟩ => rfl | ⟨2, _⟩ => rfl | ⟨3, _⟩ => rfl)
private theorem ridx31 (b : Fin 64) (h : Fin 12) (n m : Fin 197) (k : Fin 64) :
    ridx_main_v31 (ix4 b h n m) k = ix4 b h m k :=
  funext fun a => Fin.ext (by match a with | ⟨0, _⟩ => rfl | ⟨1, _⟩ => rfl | ⟨2, _⟩ => rfl | ⟨3, _⟩ => rfl)
private theorem idx4243 (b : Fin 64) (h : Fin 12) (n m : Fin 197) :
    idx_main_v42 (idx_main_v43 (ix4 b h n m)) = ix3 h n m :=
  funext fun a => Fin.ext (by match a with | ⟨0, _⟩ => rfl | ⟨1, _⟩ => rfl | ⟨2, _⟩ => rfl)
private theorem idx4849 (b : Fin 64) (h : Fin 12) (n m : Fin 197) :
    idx_main_v48 (idx_main_v49 (ix4 b h n m)) = ix3 b h n :=
  funext fun a => Fin.ext (by match a with | ⟨0, _⟩ => rfl | ⟨1, _⟩ => rfl | ⟨2, _⟩ => rfl)
private theorem idx52 (b : Fin 64) (h : Fin 12) (n : Fin 197) (k : Fin 197) :
    idx_main_v52 (ix3 b h n) k = ix4 b h n k :=
  funext fun a => Fin.ext (by match a with | ⟨0, _⟩ => rfl | ⟨1, _⟩ => rfl | ⟨2, _⟩ => rfl | ⟨3, _⟩ => rfl)
private theorem idx5354 (b : Fin 64) (h : Fin 12) (n m : Fin 197) :
    idx_main_v53 (idx_main_v54 (ix4 b h n m)) = ix3 b h n :=
  funext fun a => Fin.ext (by match a with | ⟨0, _⟩ => rfl | ⟨1, _⟩ => rfl | ⟨2, _⟩ => rfl)
private theorem lidx56 (b : Fin 64) (h : Fin 12) (n : Fin 197) (d : Fin 64) (k : Fin 197) :
    lidx_main_v56 (ix4 b h n d) k = ix4 b h n k :=
  funext fun a => Fin.ext (by match a with | ⟨0, _⟩ => rfl | ⟨1, _⟩ => rfl | ⟨2, _⟩ => rfl | ⟨3, _⟩ => rfl)
private theorem ridx56 (b : Fin 64) (h : Fin 12) (n : Fin 197) (d : Fin 64) (k : Fin 197) :
    ridx_main_v56 (ix4 b h n d) k = ix4 b h k d :=
  funext fun a => Fin.ext (by match a with | ⟨0, _⟩ => rfl | ⟨1, _⟩ => rfl | ⟨2, _⟩ => rfl | ⟨3, _⟩ => rfl)
private theorem lidx59 (b : Fin 64) (n : Fin 197) (o k : Fin 768) :
    lidx_main_v59 (ix3 b n o) k = ix3 b n k :=
  funext fun a => Fin.ext (by match a with | ⟨0, _⟩ => rfl | ⟨1, _⟩ => rfl | ⟨2, _⟩ => rfl)
private theorem ridx59 (b : Fin 64) (n : Fin 197) (o k : Fin 768) :
    ridx_main_v59 (ix3 b n o) k = ix2 o k :=
  funext fun a => Fin.ext (by match a with | ⟨0, _⟩ => rfl | ⟨1, _⟩ => rfl)
private theorem idx68 (b : Fin 64) (n : Fin 197) (o : Fin 768) :
    idx_main_v68 (ix3 b n o) = ix3 b 0 o :=
  funext fun a => Fin.ext (by match a with | ⟨0, _⟩ => rfl | ⟨1, _⟩ => rfl | ⟨2, _⟩ => rfl)
/-- Channel `c` of row `(b, n)` of the merged heads is head `c / 64`, lane `c % 64` of the per-head array:
    the flat position `(b·197 + n)·768 + c` splits as `((b·197 + n)·12 + c / 64)·64 + c % 64`. -/
private theorem idx5758 (b : Fin 64) (n : Fin 197) (c : Fin 768) :
    idx_main_v57 (idx_main_v58 (ix3 b n c)) = ix4 b (headOf c) n (laneOf c) :=
  funext fun a => Fin.ext (by
    have hb := b.isLt; have hn := n.isLt; have hc := c.isLt
    match a with
    | ⟨0, _⟩ => show ((b.val * 197 + n.val) * 768 + c.val) / 151296 = b.val; omega
    | ⟨1, _⟩ => show ((b.val * 197 + n.val) * 768 + c.val) / 64 % 12 = c.val / 64; omega
    | ⟨2, _⟩ => show ((b.val * 197 + n.val) * 768 + c.val) / 768 % 197 = n.val; omega
    | ⟨3, _⟩ => show ((b.val * 197 + n.val) * 768 + c.val) % 64 = c.val % 64; omega)

/-- The logits. -/
theorem ref_logits (b : Fin 64) (h : Fin 12) (n m : Fin 197) :
    val_main_v44 (F := Ideal) x0 x1 x2 x3 x4 x7 x8 (ix4 b h n m) = S (Xr x0 b) (Wr x1) (qbr x2 x7 b) (Rr x4 x8) h n m := by
  rw [val_main_v44_apply, val_main_v31_apply, val_main_v43_apply, val_main_v42_apply, idx4243]
  simp only [Ideal.addf_def, lidx31, ridx31, ref_q, ref_k]
  rfl

/-- The row maximum (the reduce from −∞, then once more against a broadcast −∞). -/
theorem ref_max (b : Fin 64) (h : Fin 12) (n : Fin 197) :
    val_main_v47 (F := Ideal) x0 x1 x2 x3 x4 x7 x8 (ix3 b h n) = M (Xr x0 b) (Wr x1) (qbr x2 x7 b) (Rr x4 x8) h n := by
  have hR : Shape.Reduces S64x12x197x197 [3] S64x12x197 := by decide
  have hfold : val_main_v45 (F := Ideal) x0 x1 x2 x3 x4 x7 x8 (ix3 b h n)
      = M (Xr x0 b) (Wr x1) (qbr x2 x7 b) (Rr x4 x8) h n := by
    unfold val_main_v45
    rw [Host.reduce_eq_fold_single FloatOps.maximumf _ _ Cert.ReferenceIdeal.Gen.reducesTo_S64x12x197x197_S64x12x197_d3 hR
      Cert.ReferenceIdeal.Gen.h_S_]
    unfold Cert.Attn.M
    refine congrArg (fun f : Fin 197 → EReal => Finset.fold max negInf f Finset.univ) (funext fun m => ?_)
    rw [← ref_logits x0 x1 x2 x3 x4 x7 x8 b h n m]
    exact congrArg (val_main_v44 (F := Ideal) x0 x1 x2 x3 x4 x7 x8) (funext fun a => Fin.ext (by
      match a with | ⟨0, _⟩ => rfl | ⟨1, _⟩ => rfl | ⟨2, _⟩ => rfl | ⟨3, _⟩ => rfl))
  rw [val_main_v47_apply, val_main_v46_apply, val_main_cst_7_apply, hfold]
  simp only [Ideal.maximumf_def, Ideal.ofBits_def]
  unfold Cert.Attn.M
  exact max_eq_right ((Finset.le_fold_max _).mpr (Or.inl le_rfl))

/-- The exponentials and their row sums. -/
theorem ref_exp (b : Fin 64) (h : Fin 12) (n m : Fin 197) :
    val_main_v51 (F := Ideal) x0 x1 x2 x3 x4 x7 x8 (ix4 b h n m) = P (Xr x0 b) (Wr x1) (qbr x2 x7 b) (Rr x4 x8) h n m := by
  rw [val_main_v51_apply, val_main_v50_apply, val_main_v49_apply, val_main_v48_apply, idx4849, ref_logits, ref_max]
  simp only [Ideal.hostUnary_exp_def, Ideal.subf_def]
  rfl
theorem ref_sum (b : Fin 64) (h : Fin 12) (n : Fin 197) :
    val_main_v52 (F := Ideal) x0 x1 x2 x3 x4 x7 x8 (ix3 b h n) = L (Xr x0 b) (Wr x1) (qbr x2 x7 b) (Rr x4 x8) h n := by
  rw [val_main_v52_apply, val_main_cst_8_apply]
  simp only [Ideal.ofBits_def, Ideal.ofBits_zero_f32, zero_add, idx52, ref_exp]
  rfl

/-- The attention per head, normalised before the product with the values. -/
theorem ref_attn (b : Fin 64) (h : Fin 12) (n : Fin 197) (d : Fin 64) :
    val_main_v56 (F := Ideal) x0 x1 x2 x3 x4 x7 x8 (ix4 b h n d)
      = attnBefore (Xr x0 b) (Wr x1) (qbr x2 x7 b) (vbr x3 x7 b) (Rr x4 x8) h n d := by
  rw [val_main_v56_apply]
  unfold attnBefore
  refine Finset.sum_congr rfl fun m _ => ?_
  rw [lidx56, ridx56, val_main_v55_apply, val_main_v54_apply, val_main_v53_apply, idx5354, ref_exp, ref_sum, ref_v]
  simp only [Ideal.hostDivf_def]

/-- The result. -/
theorem ref_out (b : Fin 64) (n : Fin 197) (o : Fin 768) :
    val_main_v69 (F := Ideal) x0 x1 x2 x3 x4 x5 x6 x7 x8 (ix3 b n o)
      = outBefore (Xr x0 b) (Wr x1) (qbr x2 x7 b) (vbr x3 x7 b) (pbr x6 x7 b) (Rr x4 x8) (PWr x5) n o := by
  rw [val_main_v69_apply, val_main_v59_apply, val_main_v68_apply, idx68]
  simp only [Ideal.addf_def]
  unfold outBefore
  refine congrArg (· + _) (Finset.sum_congr rfl fun c _ => ?_)
  rw [lidx59, ridx59, val_main_v58_apply, val_main_v57_apply, idx5758, ref_attn]

end Cert.RefBridge

end
-- ==== Proof.KerArgs.lean ====
/-
  A sample's arguments read out of the kernel's loaded blocks: the rows of one sample, the weights, the
  sample's bias rows, the relative-position bias, as functions of plain coordinates.
-/
import proofs.«425020_j9560597201107_3_alg».proof.KernelIdeal
import proofs.«425020_j9560597201107_3_alg».proof.Proof.AttnSpec
import Idealize.ShloMosaic.Lib.ValueIdx

noncomputable section

namespace Cert.KerBridge

open Cert.KernelIdeal Idealize.ShloMosaic Idealize.ShloMosaic.ValueIdx

abbrev Xk (xs : FVec Ideal S1x197x768 .f32) : Fin 197 → Fin 768 → EReal := fun n c => xs (ix3 0 n c)
abbrev Wk (w : FVec Ideal S2304x768 .bf16) : Fin 2304 → Fin 768 → EReal := fun o c => w (ix2 o c)
abbrev bk (v : FVec Ideal S1x1x768 .f32) : Fin 768 → EReal := fun c => v (ix3 0 0 c)
abbrev Rk (r : FVec Ideal S12x197x197 .f32) : Fin 12 → Fin 197 → Fin 197 → EReal := fun h n m => r (ix3 h n m)
abbrev PWk (w : FVec Ideal S768x768 .bf16) : Fin 768 → Fin 768 → EReal := fun o c => w (ix2 o c)

end Cert.KerBridge

end
-- ==== Proof.KerLayout.lean ====
/-
  The kernel's layout operations read at explicit coordinates: splitting a 768-wide row into heads and lanes,
  moving the head axis to the front and back, cutting the query / key / value thirds out of the joint projection,
  broadcasting a bias row down the rows and a per-row scalar along the last axis.
-/
import proofs.«425020_j9560597201107_3_alg».proof.KernelIdeal
import proofs.«425020_j9560597201107_3_alg».proof.Proof.AttnSpec
import Idealize.ShloMosaic.Lib.ValueIdx
import Idealize.ShloMosaic.Lib.ValueLayout
import Idealize.ShloMosaic.Lib.Pipeline.Value

noncomputable section

namespace Cert.KerBridge

open Cert.KernelIdeal Idealize.ShloMosaic Idealize.ShloMosaic.ValueIdx Cert.Attn

variable {α : Type}

/-- [197,768] → [197,12,64]: entry (n, h, d) is column h·64+d of row n. -/
theorem split_heads (v : S197x768.Idx → α) (hc : S197x768.ShapeCasts S197x12x64) (n : Fin 197) (h : Fin 12) (d : Fin 64) :
    shapeCast S197x12x64 v hc (ix3 n h d) = v (ix2 n (hd h d)) := by
  refine shapeCast_apply v hc _ _ ?_
  have hn := n.isLt; have hh := h.isLt; have hd' := d.isLt
  rw [Shape.rowMajor_val_two, Shape.rowMajor_val_three]
  show n.val * 768 + (h.val * 64 + d.val) = (n.val * 12 + h.val) * 64 + d.val
  omega

/-- [197,12,64] → [12,197,64] by the permutation [1,0,2]. -/
theorem heads_front (v : S197x12x64.Idx → α) (ht : S197x12x64.Transposes [1, 0, 2] S12x197x64) (h : Fin 12) (n : Fin 197) (d : Fin 64) :
    transpose S12x197x64 [1, 0, 2] v ht (ix3 h n d) = v (ix3 n h d) := by
  exact transpose_apply _ v ht _ _ fun b => match b with | ⟨0, _⟩ => rfl | ⟨1, _⟩ => rfl | ⟨2, _⟩ => rfl

/-- [12,197,64] → [197,12,64] by the permutation [1,0,2]. -/
theorem heads_back (v : S12x197x64.Idx → α) (ht : S12x197x64.Transposes [1, 0, 2] S197x12x64) (n : Fin 197) (h : Fin 12) (d : Fin 64) :
    transpose S197x12x64 [1, 0, 2] v ht (ix3 n h d) = v (ix3 h n d) := by
  exact transpose_apply _ v ht _ _ fun b => match b with | ⟨0, _⟩ => rfl | ⟨1, _⟩ => rfl | ⟨2, _⟩ => rfl

/-- [197,12,64] → [197,768]: column c of row n is entry (n, c / 64, c % 64). -/
theorem merge_heads (v : S197x12x64.Idx → α) (hc : S197x12x64.ShapeCasts S197x768) (n : Fin 197) (c : Fin 768) :
    shapeCast S197x768 v hc (ix2 n c) = v (ix3 n (headOf c) (laneOf c)) := by
  refine shapeCast_apply v hc _ _ ?_
  have hn := n.isLt; have hc' := c.isLt
  rw [Shape.rowMajor_val_three, Shape.rowMajor_val_two]
  show (n.val * 12 + c.val / 64) * 64 + c.val % 64 = n.val * 768 + c.val
  omega

/-- The query third of the joint projection. -/
theorem slice_q (v : S197x2304.Idx → α) (hs : S197x2304.Slices ![0, 0] S197x768) (n : Fin 197) (h : Fin 12) (d : Fin 64) :
    extractStridedSlice S197x768 ![0, 0] v hs (ix2 n (hd h d)) = v (ix2 n (col 0 h d)) := by
  refine slice2_axis1_apply 0 v hs n (hd h d) (col 0 h d) ?_
  show 0 * 768 + h.val * 64 + d.val = 0 + (h.val * 64 + d.val)
  omega
/-- The key third. -/
theorem slice_k (v : S197x2304.Idx → α) (hs : S197x2304.Slices ![0, 768] S197x768) (n : Fin 197) (h : Fin 12) (d : Fin 64) :
    extractStridedSlice S197x768 ![0, 768] v hs (ix2 n (hd h d)) = v (ix2 n (col 1 h d)) := by
  refine slice2_axis1_apply 768 v hs n (hd h d) (col 1 h d) ?_
  show 1 * 768 + h.val * 64 + d.val = 768 + (h.val * 64 + d.val)
  omega
/-- The value third. -/
theorem slice_v (v : S197x2304.Idx → α) (hs : S197x2304.Slices ![0, 1536] S197x768) (n : Fin 197) (h : Fin 12) (d : Fin 64) :
    extractStridedSlice S197x768 ![0, 1536] v hs (ix2 n (hd h d)) = v (ix2 n (col 2 h d)) := by
  refine slice2_axis1_apply 1536 v hs n (hd h d) (col 2 h d) ?_
  show 2 * 768 + h.val * 64 + d.val = 1536 + (h.val * 64 + d.val)
  omega

/-- A loaded [1,1,768] bias row, squeezed to [768], widened to [1,768] and broadcast down 197 rows. -/
theorem bias_rows (b : S1x1x768.Idx → α) (h1 : S1x1x768.ShapeCasts S768) (h2 : S768.ShapeCasts S1x768) (h3 : S1x768.Broadcasts S197x768)
    (n : Fin 197) (c : Fin 768) :
    broadcastTo S197x768 (shapeCast S1x768 (shapeCast S768 b h1) h2) h3 (ix2 n c) = b (ix3 0 0 c) := by
  refine (broadcastTo_1b_ab_apply _ h3 n c).trans ?_
  refine (shapeCast_a_1a_apply _ h2 0 c).trans ?_
  refine shapeCast_apply b h1 _ _ ?_
  rw [Shape.rowMajor_val_three, Shape.rowMajor_val_one]
  show (0 * 1 + 0) * 768 + c.val = c.val
  omega

/-- A loaded [1,197,768] block of rows squeezed to [197,768]. -/
theorem squeeze_rows (xs : S1x197x768.Idx → α) (hc : S1x197x768.ShapeCasts S197x768) (n : Fin 197) (c : Fin 768) :
    shapeCast S197x768 xs hc (ix2 n c) = xs (ix3 0 n c) := by
  exact shapeCast_1ab_ab_apply xs hc n c

/-- [197,768] widened to the stored [1,197,768]. -/
theorem unsqueeze_rows (v : S197x768.Idx → α) (hc : S197x768.ShapeCasts S1x197x768) (n : Fin 197) (o : Fin 768) :
    shapeCast S1x197x768 v hc (ix3 0 n o) = v (ix2 n o) := by
  exact shapeCast_ab_1ab_apply v hc 0 n o

/-- A per-(head,row) scalar [12,197] kept as a column [12,197,1] and broadcast along 197 columns. -/
theorem keep_bcast197 (v : S12x197.Idx → α) (hc : S12x197.ShapeCasts S12x197x1) (hb : S12x197x1.Broadcasts S12x197x197)
    (h : Fin 12) (n m : Fin 197) :
    broadcastTo S12x197x197 (shapeCast S12x197x1 v hc) hb (ix3 h n m) = v (ix2 h n) := by
  refine (broadcastTo_apply _ hb (ix3 h n m) (ix3 h n (0 : Fin 1)) fun ax => ?_).trans ?_
  · match ax with
    | ⟨0, _⟩ => rfl
    | ⟨1, _⟩ => rfl
    | ⟨2, _⟩ => rfl
  · refine shapeCast_apply v hc _ _ ?_
    rw [Shape.rowMajor_val_two, Shape.rowMajor_val_three]
    show h.val * 197 + n.val = (h.val * 197 + n.val) * 1 + 0
    omega
/-- The same along 64 lanes. -/
theorem keep_bcast64 (v : S12x197.Idx → α) (hc : S12x197.ShapeCasts S12x197x1) (hb : S12x197x1.Broadcasts S12x197x64)
    (h : Fin 12) (n : Fin 197) (d : Fin 64) :
    broadcastTo S12x197x64 (shapeCast S12x197x1 v hc) hb (ix3 h n d) = v (ix2 h n) := by
  refine (broadcastTo_apply _ hb (ix3 h n d) (ix3 h n (0 : Fin 1)) fun ax => ?_).trans ?_
  · match ax with
    | ⟨0, _⟩ => rfl
    | ⟨1, _⟩ => rfl
    | ⟨2, _⟩ => rfl
  · refine shapeCast_apply v hc _ _ ?_
    rw [Shape.rowMajor_val_two, Shape.rowMajor_val_three]
    show h.val * 197 + n.val = (h.val * 197 + n.val) * 1 + 0
    omega

end Cert.KerBridge

end
-- ==== Proof.KerDots.lean ====
/-
  The kernel's four matrix products and two row reductions read at explicit coordinates, at the ideal values:
  each product into the zero accumulator is the plain sum over the contracted coordinate, the row maximum is
  the fold of max from the word of −∞, the row sum the sum over the row.
-/
import proofs.«425020_j9560597201107_3_alg».proof.KernelIdeal
import proofs.«425020_j9560597201107_3_alg».proof.Proof.Gen.KernelIdeal
import proofs.«425020_j9560597201107_3_alg».proof.Proof.AttnSpec
import Idealize.ShloMosaic.Lib.ValueIdx
import Idealize.ShloMosaic.PureOps.Ideal.Laws

noncomputable section

namespace Cert.KerBridge

open Cert.KernelIdeal Idealize.ShloMosaic Idealize.ShloMosaic.ValueIdx Cert.Attn

/-! ### The joint projection: no batch axis, rows kept on the left, output channels kept on the right. -/

private theorem qkv_lhs_0 (i : S197x2304.Idx) (q : dot_S197x768_S2304x768_S197x2304_1_1_0_0_n_n.contr.Idx) :
    (dot_S197x768_S2304x768_S197x2304_1_1_0_0_n_n.lhsIdx i q 0).val = (i 0).val := by
  unfold DotDims.lhsIdx
  rw [dif_neg (show ¬(0 : Fin S197x768.rank) ∈ dot_S197x768_S2304x768_S197x2304_1_1_0_0_n_n.lhsBatch by decide), dif_pos (show (0 : Fin S197x768.rank) ∈ dot_S197x768_S2304x768_S197x2304_1_1_0_0_n_n.lhsNonContracting by decide)]
  rfl
private theorem qkv_lhs_1 (i : S197x2304.Idx) (q : dot_S197x768_S2304x768_S197x2304_1_1_0_0_n_n.contr.Idx) :
    (dot_S197x768_S2304x768_S197x2304_1_1_0_0_n_n.lhsIdx i q 1).val = (q ⟨0, by decide⟩).val :=
  dot_S197x768_S2304x768_S197x2304_1_1_0_0_n_n.lhsIdx_val_of_single rfl i q
private theorem qkv_rhs_0 (i : S197x2304.Idx) (q : dot_S197x768_S2304x768_S197x2304_1_1_0_0_n_n.contr.Idx) :
    (dot_S197x768_S2304x768_S197x2304_1_1_0_0_n_n.rhsIdx i q 0).val = (i 1).val := by
  unfold DotDims.rhsIdx
  rw [dif_neg (show ¬(0 : Fin S2304x768.rank) ∈ dot_S197x768_S2304x768_S197x2304_1_1_0_0_n_n.rhsBatch by decide), dif_pos (show (0 : Fin S2304x768.rank) ∈ dot_S197x768_S2304x768_S197x2304_1_1_0_0_n_n.rhsNonContracting by decide)]
  rfl
private theorem qkv_rhs_1 (i : S197x2304.Idx) (q : dot_S197x768_S2304x768_S197x2304_1_1_0_0_n_n.contr.Idx) :
    (dot_S197x768_S2304x768_S197x2304_1_1_0_0_n_n.rhsIdx i q 1).val = (q ⟨0, by decide⟩).val :=
  dot_S197x768_S2304x768_S197x2304_1_1_0_0_n_n.rhsIdx_val_of_single rfl i q

/-- rows [197,768] times the joint weight [2304,768], contracted over the 768 input channels. -/
theorem dot_qkv (l : FVec Ideal S197x768 .bf16) (r : FVec Ideal S2304x768 .bf16) (n : Fin 197) (o : Fin 2304) :
    matmul (F := Ideal) dot_S197x768_S2304x768_S197x2304_1_1_0_0_n_n none l r (constant (F := Ideal) S197x2304 .f32 0x00000000#32) (ix2 n o)
      = ∑ c : Fin 768, l (ix2 n c) * r (ix2 o c) := by
  simp only [matmul]
  rw [Ideal.matmul_constant_zero_apply, ← Equiv.sum_comp (contrEquiv1 dot_S197x768_S2304x768_S197x2304_1_1_0_0_n_n 768 rfl rfl).symm]
  refine Finset.sum_congr rfl fun k _ => ?_
  have hk := contrEquiv1_symm_val dot_S197x768_S2304x768_S197x2304_1_1_0_0_n_n 768 rfl rfl k
  have el : dot_S197x768_S2304x768_S197x2304_1_1_0_0_n_n.lhsIdx (ix2 n o) ((contrEquiv1 dot_S197x768_S2304x768_S197x2304_1_1_0_0_n_n 768 rfl rfl).symm k) = ix2 n k := funext fun a => Fin.ext (by
    match a with
    | ⟨0, _⟩ => exact qkv_lhs_0 _ _
    | ⟨1, _⟩ => exact (qkv_lhs_1 _ _).trans hk)
  have er : dot_S197x768_S2304x768_S197x2304_1_1_0_0_n_n.rhsIdx (ix2 n o) ((contrEquiv1 dot_S197x768_S2304x768_S197x2304_1_1_0_0_n_n 768 rfl rfl).symm k) = ix2 o k := funext fun a => Fin.ext (by
    match a with
    | ⟨0, _⟩ => exact qkv_rhs_0 _ _
    | ⟨1, _⟩ => exact (qkv_rhs_1 _ _).trans hk)
  rw [el, er]

/-! ### The scores: the head is a batch axis, the query row is kept on the left, the key row on the right. -/

private theorem sc_lhs_0 (i : S12x197x197.Idx) (q : dot_S12x197x64_S12x197x64_S12x197x197_2_2_1_1_0_0.contr.Idx) :
    (dot_S12x197x64_S12x197x64_S12x197x197_2_2_1_1_0_0.lhsIdx i q 0).val = (i 0).val := by
  unfold DotDims.lhsIdx
  rw [dif_pos (show (0 : Fin S12x197x64.rank) ∈ dot_S12x197x64_S12x197x64_S12x197x197_2_2_1_1_0_0.lhsBatch by decide)]
  rfl
private theorem sc_lhs_1 (i : S12x197x197.Idx) (q : dot_S12x197x64_S12x197x64_S12x197x197_2_2_1_1_0_0.contr.Idx) :
    (dot_S12x197x64_S12x197x64_S12x197x197_2_2_1_1_0_0.lhsIdx i q 1).val = (i 1).val := by
  unfold DotDims.lhsIdx
  rw [dif_neg (show ¬(1 : Fin S12x197x64.rank) ∈ dot_S12x197x64_S12x197x64_S12x197x197_2_2_1_1_0_0.lhsBatch by decide), dif_pos (show (1 : Fin S12x197x64.rank) ∈ dot_S12x197x64_S12x197x64_S12x197x197_2_2_1_1_0_0.lhsNonContracting by decide)]
  rfl
private theorem sc_lhs_2 (i : S12x197x197.Idx) (q : dot_S12x197x64_S12x197x64_S12x197x197_2_2_1_1_0_0.contr.Idx) :
    (dot_S12x197x64_S12x197x64_S12x197x197_2_2_1_1_0_0.lhsIdx i q 2).val = (q ⟨0, by decide⟩).val :=
  dot_S12x197x64_S12x197x64_S12x197x197_2_2_1_1_0_0.lhsIdx_val_of_single rfl i q
private theorem sc_rhs_0 (i : S12x197x197.Idx) (q : dot_S12x197x64_S12x197x64_S12x197x197_2_2_1_1_0_0.contr.Idx) :
    (dot_S12x197x64_S12x197x64_S12x197x197_2_2_1_1_0_0.rhsIdx i q 0).val = (i 0).val := by
  unfold DotDims.rhsIdx
  rw [dif_pos (show (0 : Fin S12x197x64.rank) ∈ dot_S12x197x64_S12x197x64_S12x197x197_2_2_1_1_0_0.rhsBatch by decide)]
  rfl
private theorem sc_rhs_1 (i : S12x197x197.Idx) (q : dot_S12x197x64_S12x197x64_S12x197x197_2_2_1_1_0_0.contr.Idx) :
    (dot_S12x197x64_S12x197x64_S12x197x197_2_2_1_1_0_0.rhsIdx i q 1).val = (i 2).val := by
  unfold DotDims.rhsIdx
  rw [dif_neg (show ¬(1 : Fin S12x197x64.rank) ∈ dot_S12x197x64_S12x197x64_S12x197x197_2_2_1_1_0_0.rhsBatch by decide), dif_pos (show (1 : Fin S12x197x64.rank) ∈ dot_S12x197x64_S12x197x64_S12x197x197_2_2_1_1_0_0.rhsNonContracting by decide)]
  rfl
private theorem sc_rhs_2 (i : S12x197x197.Idx) (q : dot_S12x197x64_S12x197x64_S12x197x197_2_2_1_1_0_0.contr.Idx) :
    (dot_S12x197x64_S12x197x64_S12x197x197_2_2_1_1_0_0.rhsIdx i q 2).val = (q ⟨0, by decide⟩).val :=
  dot_S12x197x64_S12x197x64_S12x197x197_2_2_1_1_0_0.rhsIdx_val_of_single rfl i q

/-- per head: queries [12,197,64] against keys [12,197,64], contracted over the 64 lanes. -/
theorem dot_scores (l r : FVec Ideal S12x197x64 .bf16) (h : Fin 12) (n m : Fin 197) :
    matmul (F := Ideal) dot_S12x197x64_S12x197x64_S12x197x197_2_2_1_1_0_0 none l r (constant (F := Ideal) S12x197x197 .f32 0x00000000#32) (ix3 h n m)
      = ∑ d : Fin 64, l (ix3 h n d) * r (ix3 h m d) := by
  simp only [matmul]
  rw [Ideal.matmul_constant_zero_apply, ← Equiv.sum_comp (contrEquiv1 dot_S12x197x64_S12x197x64_S12x197x197_2_2_1_1_0_0 64 rfl rfl).symm]
  refine Finset.sum_congr rfl fun k _ => ?_
  have hk := contrEquiv1_symm_val dot_S12x197x64_S12x197x64_S12x197x197_2_2_1_1_0_0 64 rfl rfl k
  have el : dot_S12x197x64_S12x197x64_S12x197x197_2_2_1_1_0_0.lhsIdx (ix3 h n m) ((contrEquiv1 dot_S12x197x64_S12x197x64_S12x197x197_2_2_1_1_0_0 64 rfl rfl).symm k) = ix3 h n k := funext fun a => Fin.ext (by
    match a with
    | ⟨0, _⟩ => exact sc_lhs_0 _ _
    | ⟨1, _⟩ => exact sc_lhs_1 _ _
    | ⟨2, _⟩ => exact (sc_lhs_2 _ _).trans hk)
  have er : dot_S12x197x64_S12x197x64_S12x197x197_2_2_1_1_0_0.rhsIdx (ix3 h n m) ((contrEquiv1 dot_S12x197x64_S12x197x64_S12x197x197_2_2_1_1_0_0 64 rfl rfl).symm k) = ix3 h m k := funext fun a => Fin.ext (by
    match a with
    | ⟨0, _⟩ => exact sc_rhs_0 _ _
    | ⟨1, _⟩ => exact sc_rhs_1 _ _
    | ⟨2, _⟩ => exact (sc_rhs_2 _ _).trans hk)
  rw [el, er]

/-! ### Weights times values: the head is a batch axis, the query row is kept on the left, the lane on the right. -/

private theorem pv_lhs_0 (i : S12x197x64.Idx) (q : dot_S12x197x197_S12x197x64_S12x197x64_2_1_1_2_0_0.contr.Idx) :
    (dot_S12x197x197_S12x197x64_S12x197x64_2_1_1_2_0_0.lhsIdx i q 0).val = (i 0).val := by
  unfold DotDims.lhsIdx
  rw [dif_pos (show (0 : Fin S12x197x197.rank) ∈ dot_S12x197x197_S12x197x64_S12x197x64_2_1_1_2_0_0.lhsBatch by decide)]
  rfl
private theorem pv_lhs_1 (i : S12x197x64.Idx) (q : dot_S12x197x197_S12x197x64_S12x197x64_2_1_1_2_0_0.contr.Idx) :
    (dot_S12x197x197_S12x197x64_S12x197x64_2_1_1_2_0_0.lhsIdx i q 1).val = (i 1).val := by
  unfold DotDims.lhsIdx
  rw [dif_neg (show ¬(1 : Fin S12x197x197.rank) ∈ dot_S12x197x197_S12x197x64_S12x197x64_2_1_1_2_0_0.lhsBatch by decide), dif_pos (show (1 : Fin S12x197x197.rank) ∈ dot_S12x197x197_S12x197x64_S12x197x64_2_1_1_2_0_0.lhsNonContracting by decide)]
  rfl
private theorem pv_lhs_2 (i : S12x197x64.Idx) (q : dot_S12x197x197_S12x197x64_S12x197x64_2_1_1_2_0_0.contr.Idx) :
    (dot_S12x197x197_S12x197x64_S12x197x64_2_1_1_2_0_0.lhsIdx i q 2).val = (q ⟨0, by decide⟩).val :=
  dot_S12x197x197_S12x197x64_S12x197x64_2_1_1_2_0_0.lhsIdx_val_of_single rfl i q
private theorem pv_rhs_0 (i : S12x197x64.Idx) (q : dot_S12x197x197_S12x197x64_S12x197x64_2_1_1_2_0_0.contr.Idx) :
    (dot_S12x197x197_S12x197x64_S12x197x64_2_1_1_2_0_0.rhsIdx i q 0).val = (i 0).val := by
  unfold DotDims.rhsIdx
  rw [dif_pos (show (0 : Fin S12x197x64.rank) ∈ dot_S12x197x197_S12x197x64_S12x197x64_2_1_1_2_0_0.rhsBatch by decide)]
  rfl
private theorem pv_rhs_1 (i : S12x197x64.Idx) (q : dot_S12x197x197_S12x197x64_S12x197x64_2_1_1_2_0_0.contr.Idx) :
    (dot_S12x197x197_S12x197x64_S12x197x64_2_1_1_2_0_0.rhsIdx i q 1).val = (q ⟨0, by decide⟩).val :=
  dot_S12x197x197_S12x197x64_S12x197x64_2_1_1_2_0_0.rhsIdx_val_of_single rfl i q
private theorem pv_rhs_2 (i : S12x197x64.Idx) (q : dot_S12x197x197_S12x197x64_S12x197x64_2_1_1_2_0_0.contr.Idx) :
    (dot_S12x197x197_S12x197x64_S12x197x64_2_1_1_2_0_0.rhsIdx i q 2).val = (i 2).val := by
  unfold DotDims.rhsIdx
  rw [dif_neg (show ¬(2 : Fin S12x197x64.rank) ∈ dot_S12x197x197_S12x197x64_S12x197x64_2_1_1_2_0_0.rhsBatch by decide), dif_pos (show (2 : Fin S12x197x64.rank) ∈ dot_S12x197x197_S12x197x64_S12x197x64_2_1_1_2_0_0.rhsNonContracting by decide)]
  rfl

/-- per head: weights [12,197,197] against values [12,197,64], contracted over the 197 keys. -/
theorem dot_pv (l : FVec Ideal S12x197x197 .bf16) (r : FVec Ideal S12x197x64 .bf16) (h : Fin 12) (n : Fin 197) (d : Fin 64) :
    matmul (F := Ideal) dot_S12x197x197_S12x197x64_S12x197x64_2_1_1_2_0_0 none l r (constant (F := Ideal) S12x197x64 .f32 0x00000000#32) (ix3 h n d)
      = ∑ m : Fin 197, l (ix3 h n m) * r (ix3 h m d) := by
  simp only [matmul]
  rw [Ideal.matmul_constant_zero_apply, ← Equiv.sum_comp (contrEquiv1 dot_S12x197x197_S12x197x64_S12x197x64_2_1_1_2_0_0 197 rfl rfl).symm]
  refine Finset.sum_congr rfl fun k _ => ?_
  have hk := contrEquiv1_symm_val dot_S12x197x197_S12x197x64_S12x197x64_2_1_1_2_0_0 197 rfl rfl k
  have el : dot_S12x197x197_S12x197x64_S12x197x64_2_1_1_2_0_0.lhsIdx (ix3 h n d) ((contrEquiv1 dot_S12x197x197_S12x197x64_S12x197x64_2_1_1_2_0_0 197 rfl rfl).symm k) = ix3 h n k := funext fun a => Fin.ext (by
    match a with
    | ⟨0, _⟩ => exact pv_lhs_0 _ _
    | ⟨1, _⟩ => exact pv_lhs_1 _ _
    | ⟨2, _⟩ => exact (pv_lhs_2 _ _).trans hk)
  have er : dot_S12x197x197_S12x197x64_S12x197x64_2_1_1_2_0_0.rhsIdx (ix3 h n d) ((contrEquiv1 dot_S12x197x197_S12x197x64_S12x197x64_2_1_1_2_0_0 197 rfl rfl).symm k) = ix3 h k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ### The output projection: the same dimension numbers as the joint projection, a square weight. -/

private theorem pj_lhs_0 (i : S197x768.Idx) (q : dot_S197x768_S768x768_S197x768_1_1_0_0_n_n.contr.Idx) :
    (dot_S197x768_S768x768_S197x768_1_1_0_0_n_n.lhsIdx i q 0).val = (i 0).val := by
  unfold DotDims.lhsIdx
  rw [dif_neg (show ¬(0 : Fin S197x768.rank) ∈ dot_S197x768_S768x768_S197x768_1_1_0_0_n_n.lhsBatch by decide), dif_pos (show (0 : Fin S197x768.rank) ∈ dot_S197x768_S768x768_S197x768_1_1_0_0_n_n.lhsNonContracting by decide)]
  rfl
private theorem pj_lhs_1 (i : S197x768.Idx) (q : dot_S197x768_S768x768_S197x768_1_1_0_0_n_n.contr.Idx) :
    (dot_S197x768_S768x768_S197x768_1_1_0_0_n_n.lhsIdx i q 1).val = (q ⟨0, by decide⟩).val :=
  dot_S197x768_S768x768_S197x768_1_1_0_0_n_n.lhsIdx_val_of_single rfl i q
private theorem pj_rhs_0 (i : S197x768.Idx) (q : dot_S197x768_S768x768_S197x768_1_1_0_0_n_n.contr.Idx) :
    (dot_S197x768_S768x768_S197x768_1_1_0_0_n_n.rhsIdx i q 0).val = (i 1).val := by
  unfold DotDims.rhsIdx
  rw [dif_neg (show ¬(0 : Fin S768x768.rank) ∈ dot_S197x768_S768x768_S197x768_1_1_0_0_n_n.rhsBatch by decide), dif_pos (show (0 : Fin S768x768.rank) ∈ dot_S197x768_S768x768_S197x768_1_1_0_0_n_n.rhsNonContracting by decide)]
  rfl
private theorem pj_rhs_1 (i : S197x768.Idx) (q : dot_S197x768_S768x768_S197x768_1_1_0_0_n_n.contr.Idx) :
    (dot_S197x768_S768x768_S197x768_1_1_0_0_n_n.rhsIdx i q 1).val = (q ⟨0, by decide⟩).val :=
  dot_S197x768_S768x768_S197x768_1_1_0_0_n_n.rhsIdx_val_of_single rfl i q

/-- rows [197,768] times the output weight [768,768], contracted over the 768 input channels. -/
theorem dot_proj (l : FVec Ideal S197x768 .bf16) (r : FVec Ideal S768x768 .bf16) (n : Fin 197) (o : Fin 768) :
    matmul (F := Ideal) dot_S197x768_S768x768_S197x768_1_1_0_0_n_n none l r (constant (F := Ideal) S197x768 .f32 0x00000000#32) (ix2 n o)
      = ∑ c : Fin 768, l (ix2 n c) * r (ix2 o c) := by
  simp only [matmul]
  rw [Ideal.matmul_constant_zero_apply, ← Equiv.sum_comp (contrEquiv1 dot_S197x768_S768x768_S197x768_1_1_0_0_n_n 768 rfl rfl).symm]
  refine Finset.sum_congr rfl fun k _ => ?_
  have hk := contrEquiv1_symm_val dot_S197x768_S768x768_S197x768_1_1_0_0_n_n 768 rfl rfl k
  have el : dot_S197x768_S768x768_S197x768_1_1_0_0_n_n.lhsIdx (ix2 n o) ((contrEquiv1 dot_S197x768_S768x768_S197x768_1_1_0_0_n_n 768 rfl rfl).symm k) = ix2 n k := funext fun a => Fin.ext (by
    match a with
    | ⟨0, _⟩ => exact pj_lhs_0 _ _
    | ⟨1, _⟩ => exact (pj_lhs_1 _ _).trans hk)
  have er : dot_S197x768_S768x768_S197x768_1_1_0_0_n_n.rhsIdx (ix2 n o) ((contrEquiv1 dot_S197x768_S768x768_S197x768_1_1_0_0_n_n 768 rfl rfl).symm k) = ix2 o k := funext fun a => Fin.ext (by
    match a with
    | ⟨0, _⟩ => exact pj_rhs_0 _ _
    | ⟨1, _⟩ => exact (pj_rhs_1 _ _).trans hk)
  rw [el, er]

/-! ### The two row reductions: the reduced index (h, n) with the coordinate m put back on the last axis is (h, n, m). -/

private theorem lift_row (hr : S12x197x197.Reduces [2] S12x197) (h : Fin 12) (n : Fin 197) (m : Fin (S12x197x197.size 2)) :
    hr.lift (ix2 h n) m = ix3 h n m := funext fun a => Fin.ext (by
  match a with
  | ⟨0, _⟩ => rfl
  | ⟨1, _⟩ => rfl
  | ⟨2, _⟩ => rfl)

/-- The row maximum over the last axis. -/
theorem row_max (v : FVec Ideal S12x197x197 .f32) (hr : S12x197x197.Reduces [2] S12x197) (hφ : FKind.Formats .f32)
    (hacc : (0xFF800000#32 : BitVec 32) = FKind.maximumf.neutral .f32 hφ) (h : Fin 12) (n : Fin 197) :
    multiReduction (F := Ideal) .maximumf [2] S12x197 v 0xFF800000#32 hr hφ hacc (ix2 h n)
      = (Finset.univ : Finset (Fin 197)).fold max negInf (fun m => v (ix3 h n m)) := by
  rw [Ideal.multiReduction_maximumf_single]
  have e : v ∘ hr.lift (ix2 h n) = fun m => v (ix3 h n m) := funext fun m => congrArg v (lift_row hr h n m)
  rw [e]
  rfl

/-- The row sum over the last axis. -/
theorem row_sum (v : FVec Ideal S12x197x197 .f32) (hr : S12x197x197.Reduces [2] S12x197) (hφ : FKind.Formats .f32)
    (hacc : (0x00000000#32 : BitVec 32) = FKind.add.neutral .f32 hφ) (h : Fin 12) (n : Fin 197) :
    multiReduction (F := Ideal) .add [2] S12x197 v 0x00000000#32 hr hφ hacc (ix2 h n)
      = ∑ m : Fin 197, v (ix3 h n m) := by
  rw [Ideal.multiReduction_add_single]
  exact Finset.sum_congr rfl fun m _ => congrArg v (lift_row hr h n m)

end Cert.KerBridge

end
-- ==== Proof.KerPay8.lean ====
/-
  The first of the two samples a grid point handles: what the kernel body stores for it, entry (n, o), is the
  sample's output row `outAfter … n o` of the specification (attention normalised after the product with V).
-/
import proofs.«425020_j9560597201107_3_alg».proof.Proof.Gen.KernelIdeal.Skeleton
import proofs.«425020_j9560597201107_3_alg».proof.Proof.AttnSpec
import proofs.«425020_j9560597201107_3_alg».proof.Proof.KerArgs
import proofs.«425020_j9560597201107_3_alg».proof.Proof.KerLayout
import proofs.«425020_j9560597201107_3_alg».proof.Proof.KerDots
import Idealize.ShloMosaic.Lib.ValueIdx
import Idealize.ShloMosaic.PureOps.Ideal.Laws

noncomputable section

namespace Cert.KerBridge

open Cert.KernelIdeal Cert.KernelIdeal.Gen Idealize.ShloMosaic Idealize.ShloMosaic.ValueIdx Cert.Attn

/-- The joint projection of the first sample. -/
theorem pay5_eq (w1 : FVec Ideal S2304x768 .bf16) (xs : FVec Ideal S1x197x768 .f32) (n : Fin 197) (o : Fin 2304) :
    k0_pay5 (F := Ideal) w1 xs (ix2 n o) = qkv (Xk xs) (Wk w1) n o := by
  unfold k0_pay5
  refine (dot_qkv _ _ n o).trans ?_
  unfold qkv
  refine Finset.sum_congr rfl fun c _ => ?_
  rw [truncf_apply, squeeze_rows]
  unfold k0_pay2
  rw [shapeCast_self]

/-- Its values, per head. -/
theorem pay6_eq (w1 : FVec Ideal S2304x768 .bf16) (xs : FVec Ideal S1x197x768 .f32) (vv : FVec Ideal S1x1x768 .f32)
    (h : Fin 12) (n : Fin 197) (d : Fin 64) :
    k0_pay6 (F := Ideal) w1 xs vv (ix3 h n d) = V (Xk xs) (Wk w1) (bk vv) h n d := by
  unfold k0_pay6
  refine (heads_front _ _ h n d).trans ?_
  refine (split_heads _ _ n h d).trans ?_
  refine (addf_apply _ _ _).trans ?_
  unfold V
  refine congrArg₂ (· + ·) ?_ ?_
  · exact (slice_v _ _ n h d).trans (pay5_eq w1 xs n _)
  · exact bias_rows vv _ _ _ n (hd h d)

/-- A block of logits less the row maxima folded from it, read at an entry: the entry less the
    fold of the maximum over its row. -/
private theorem sub_rowmax (A : FVec Ideal S12x197x197 .f32) (Sf : Fin 197 → EReal) (h : Fin 12) (n m : Fin 197)
    (hA : ∀ m' : Fin 197, A (ix3 h n m') = Sf m')
    (hr : S12x197x197.Reduces [2] S12x197) (hφ : FKind.Formats .f32)
    (hacc : (0xFF800000#32 : BitVec 32) = FKind.maximumf.neutral .f32 hφ)
    (hc : S12x197.ShapeCasts S12x197x1) (hb : S12x197x1.Broadcasts S12x197x197) :
    subf A (broadcastTo S12x197x197
        (shapeCast S12x197x1 (multiReduction (F := Ideal) .maximumf [2] S12x197 A 0xFF800000#32 hr hφ hacc) hc) hb) (ix3 h n m)
      = Sf m - (Finset.univ : Finset (Fin 197)).fold max negInf Sf := by
  refine (subf_apply _ _ _).trans ?_
  refine congrArg₂ (· - ·) (hA m) ?_
  refine (keep_bcast197 _ _ _ h n m).trans ?_
  refine (row_max _ _ _ _ h n).trans ?_
  exact congrArg (fun f => (Finset.univ : Finset (Fin 197)).fold max negInf f) (funext hA)

/-- Its logits less their row maximum. -/
theorem pay7_eq (w1 : FVec Ideal S2304x768 .bf16) (r4 : FVec Ideal S12x197x197 .f32) (xs : FVec Ideal S1x197x768 .f32)
    (qv : FVec Ideal S1x1x768 .f32) (h : Fin 12) (n m : Fin 197) :
    k0_pay7 (F := Ideal) w1 r4 xs qv (ix3 h n m)
      = S (Xk xs) (Wk w1) (bk qv) (Rk r4) h n m - M (Xk xs) (Wk w1) (bk qv) (Rk r4) h n := by
  unfold k0_pay7
  refine sub_rowmax _ (fun m' => S (Xk xs) (Wk w1) (bk qv) (Rk r4) h n m') h n m (fun m' => ?_) _ _ _ _ _
  -- the logits: the scores of the scaled queries against the keys, plus the position bias
  refine (addf_apply _ _ _).trans ?_
  unfold S
  refine congrArg₂ (· + ·) ?_ ?_
  · refine (dot_scores _ _ h n m').trans ?_
    refine Finset.sum_congr rfl fun d _ => congrArg₂ (· * ·) ?_ ?_
    · -- the scaled query
      refine (truncf_apply (ψ := .bf16) (φ := .f32) _ bitsLt_bf16_f32 _).trans ?_
      refine (mulf_apply _ _ _).trans ?_
      unfold Q
      refine congrArg₂ (· * ·) ?_ rfl
      refine (heads_front _ _ h n d).trans ?_
      refine (split_heads _ _ n h d).trans ?_
      refine (addf_apply _ _ _).trans ?_
      refine congrArg₂ (· + ·) ?_ ?_
      · exact (slice_q _ _ n h d).trans (pay5_eq w1 xs n _)
      · exact bias_rows qv _ _ _ n (hd h d)
    · -- the key
      refine (truncf_apply (ψ := .bf16) (φ := .f32) _ bitsLt_bf16_f32 _).trans ?_
      refine (heads_front _ _ h m' d).trans ?_
      refine (split_heads _ _ m' h d).trans ?_
      unfold K
      exact (slice_k _ _ m' h d).trans (pay5_eq w1 xs m' _)
  · unfold k0_pay4
    rw [shapeCast_self]

/-- What is stored for the first sample. -/
theorem pay8_eq (w1 : FVec Ideal S2304x768 .bf16) (w5 : FVec Ideal S768x768 .bf16) (r4 : FVec Ideal S12x197x197 .f32)
    (xs : FVec Ideal S1x197x768 .f32) (qv vv pv : FVec Ideal S1x1x768 .f32) (n : Fin 197) (o : Fin 768) :
    k0_pay8 (F := Ideal) (k0_pay3 w5) (k0_pay6 w1 xs vv) (k0_pay7 w1 r4 xs qv) pv (ix3 0 n o)
      = outAfter (Xk xs) (Wk w1) (bk qv) (bk vv) (bk pv) (Rk r4) (PWk w5) n o := by
  unfold k0_pay8
  refine (unsqueeze_rows _ _ n o).trans ?_
  refine (addf_apply _ _ _).trans ?_
  unfold outAfter
  refine congrArg₂ (· + ·) ?_ ?_
  · -- the output projection of the merged heads
    refine (dot_proj _ _ n o).trans ?_
    refine Finset.sum_congr rfl fun c _ => congrArg₂ (· * ·) ?_ ?_
    · -- channel c of the merged heads is head (c / 64), lane (c % 64) of the attention
      refine (truncf_apply (ψ := .bf16) (φ := .f32) _ bitsLt_bf16_f32 _).trans ?_
      refine (merge_heads _ _ n c).trans ?_
      refine (heads_back _ _ n (headOf c) (laneOf c)).trans ?_
      refine (divf_apply _ _ _).trans ?_
      unfold attnAfter
      refine congrArg₂ Ideal.div ?_ ?_
      · -- the weights exp (S − M) against the values
        refine (dot_pv _ _ (headOf c) n (laneOf c)).trans ?_
        refine Finset.sum_congr rfl fun m _ => congrArg₂ (· * ·) ?_ ?_
        · exact congrArg Ideal.exp (pay7_eq w1 r4 xs qv (headOf c) n m)
        · exact pay6_eq w1 xs vv (headOf c) m (laneOf c)
      · -- the row sums of the weights
        refine (keep_bcast64 _ _ _ (headOf c) n (laneOf c)).trans ?_
        refine (row_sum _ _ _ _ (headOf c) n).trans ?_
        unfold L
        exact Finset.sum_congr rfl fun m _ => congrArg Ideal.exp (pay7_eq w1 r4 xs qv (headOf c) n m)
    · unfold k0_pay3
      rw [shapeCast_self]
  · exact bias_rows pv _ _ _ n o

end Cert.KerBridge

end
-- ==== Proof.KerPay1.lean ====
/-
  The second of the two samples a grid point handles: what the kernel body stores for it, entry (n, o), is the
  sample's output row `outAfter … n o` of the specification (attention normalised after the product with V).
-/
import proofs.«425020_j9560597201107_3_alg».proof.Proof.Gen.KernelIdeal.Skeleton
import proofs.«425020_j9560597201107_3_alg».proof.Proof.AttnSpec
import proofs.«425020_j9560597201107_3_alg».proof.Proof.KerArgs
import proofs.«425020_j9560597201107_3_alg».proof.Proof.KerLayout
import proofs.«425020_j9560597201107_3_alg».proof.Proof.KerDots
import Idealize.ShloMosaic.Lib.ValueIdx
import Idealize.ShloMosaic.PureOps.Ideal.Laws

noncomputable section

namespace Cert.KerBridge

open Cert.KernelIdeal Cert.KernelIdeal.Gen Idealize.ShloMosaic Idealize.ShloMosaic.ValueIdx Cert.Attn

/-- The joint projection of the second sample. -/
theorem pay9_eq (w1 : FVec Ideal S2304x768 .bf16) (xs : FVec Ideal S1x197x768 .f32) (n : Fin 197) (o : Fin 2304) :
    k0_pay9 (F := Ideal) (k0_pay2 w1) xs (ix2 n o) = qkv (Xk xs) (Wk w1) n o := by
  unfold k0_pay9
  refine (dot_qkv _ _ n o).trans ?_
  unfold qkv
  refine Finset.sum_congr rfl fun c _ => ?_
  refine congrArg₂ (· * ·) ?_ ?_
  · exact squeeze_rows xs _ n c
  · unfold k0_pay2
    exact congrFun (shapeCast_self w1 _) (ix2 o c)

/-- Its keys, still as rows of 768 channels. -/
theorem pay10_eq (w1 : FVec Ideal S2304x768 .bf16) (xs : FVec Ideal S1x197x768 .f32) (n : Fin 197) (h : Fin 12) (d : Fin 64) :
    k0_pay10 (F := Ideal) (k0_pay2 w1) xs (ix2 n (hd h d)) = K (Xk xs) (Wk w1) h n d := by
  unfold k0_pay10
  refine (slice_k _ _ n h d).trans ?_
  unfold K
  exact pay9_eq w1 xs n (col 1 h d)

/-- Its values, still as rows of 768 channels. -/
theorem pay11_eq (w1 : FVec Ideal S2304x768 .bf16) (xs : FVec Ideal S1x197x768 .f32) (vv : FVec Ideal S1x1x768 .f32)
    (n : Fin 197) (h : Fin 12) (d : Fin 64) :
    k0_pay11 (F := Ideal) (k0_pay2 w1) xs vv (ix2 n (hd h d)) = V (Xk xs) (Wk w1) (bk vv) h n d := by
  unfold k0_pay11
  refine (addf_apply _ _ _).trans ?_
  unfold V
  refine congrArg₂ (· + ·) ?_ ?_
  · exact (slice_v _ _ n h d).trans (pay9_eq w1 xs n (col 2 h d))
  · exact bias_rows vv _ _ _ n (hd h d)

/-- Its queries per head, before the scale. -/
theorem pay12_eq (w1 : FVec Ideal S2304x768 .bf16) (xs : FVec Ideal S1x197x768 .f32) (qv : FVec Ideal S1x1x768 .f32)
    (h : Fin 12) (n : Fin 197) (d : Fin 64) :
    k0_pay12 (F := Ideal) (k0_pay2 w1) xs qv (ix3 h n d) = qkv (Xk xs) (Wk w1) n (col 0 h d) + bk qv (hd h d) := by
  unfold k0_pay12
  refine (heads_front _ _ h n d).trans ?_
  refine (split_heads _ _ n h d).trans ?_
  refine (addf_apply _ _ _).trans ?_
  refine congrArg₂ (· + ·) ?_ ?_
  · exact (slice_q _ _ n h d).trans (pay9_eq w1 xs n (col 0 h d))
  · exact bias_rows qv _ _ _ n (hd h d)

/-- Rows of 768 channels read per head: entry (h, n, d) is channel h·64 + d of row n. -/
private def perHead (v : FVec Ideal S197x768 .f32) : FVec Ideal S12x197x64 .f32 :=
  transpose S12x197x64 [1, 0, 2] (shapeCast S197x12x64 v shapeCasts_S197x768_S197x12x64)
    transposes_S197x12x64_p1_0_2_S12x197x64

private theorem perHead_apply (v : FVec Ideal S197x768 .f32) (h : Fin 12) (n : Fin 197) (d : Fin 64) :
    perHead v (ix3 h n d) = v (ix2 n (hd h d)) :=
  (heads_front _ _ h n d).trans (split_heads v _ n h d)

/-- The logits: scaled queries against keys, plus the relative-position bias. -/
private def logits (v5 : FVec Ideal S12x197x197 .f32) (v72 : FVec Ideal S197x768 .f32)
    (v78 : FVec Ideal S12x197x64 .f32) : FVec Ideal S12x197x197 .f32 :=
  addf (matmul (F := Ideal) dot_S12x197x64_S12x197x64_S12x197x197_2_2_1_1_0_0 none
      (truncf .bf16 (mulf v78 (broadcast S12x197x64 (Scalar.ofBits (F := Ideal) .f32 0x3E000000#32))) bitsLt_bf16_f32)
      (truncf .bf16 (perHead v72) bitsLt_bf16_f32) (constant (F := Ideal) S12x197x197 .f32 0x00000000#32)) v5

/-- The row maxima of the logits. -/
private def rowMax (v5 : FVec Ideal S12x197x197 .f32) (v72 : FVec Ideal S197x768 .f32)
    (v78 : FVec Ideal S12x197x64 .f32) : FVec Ideal S12x197 .f32 :=
  multiReduction (F := Ideal) .maximumf [2] S12x197 (logits v5 v72 v78) 0xFF800000#32 reduces_S12x197x197_S12x197
    (.inl rfl) rfl

/-- The exponentials of the logits less their row maximum. -/
private def weights (v5 : FVec Ideal S12x197x197 .f32) (v72 : FVec Ideal S197x768 .f32)
    (v78 : FVec Ideal S12x197x64 .f32) : FVec Ideal S12x197x197 .f32 :=
  exp (subf (logits v5 v72 v78)
    (broadcastTo S12x197x197 (shapeCast S12x197x1 (rowMax v5 v72 v78) shapeCasts_S12x197_S12x197x1)
      broadcasts_S12x197x1_S12x197x197))

/-- The row sums of the weights. -/
private def rowSum (v5 : FVec Ideal S12x197x197 .f32) (v72 : FVec Ideal S197x768 .f32)
    (v78 : FVec Ideal S12x197x64 .f32) : FVec Ideal S12x197 .f32 :=
  multiReduction (F := Ideal) .add [2] S12x197 (weights v5 v72 v78) 0x00000000#32 reduces_S12x197x197_S12x197
    (.inl rfl) rfl

/-- The weighted values divided by the row sums. -/
private def attended (v5 : FVec Ideal S12x197x197 .f32) (v72 v76 : FVec Ideal S197x768 .f32)
    (v78 : FVec Ideal S12x197x64 .f32) : FVec Ideal S12x197x64 .f32 :=
  divf (matmul (F := Ideal) dot_S12x197x197_S12x197x64_S12x197x64_2_1_1_2_0_0 none
      (truncf .bf16 (weights v5 v72 v78) bitsLt_bf16_f32) (truncf .bf16 (perHead v76) bitsLt_bf16_f32)
      (constant (F := Ideal) S12x197x64 .f32 0x00000000#32))
    (broadcastTo S12x197x64 (shapeCast S12x197x1 (rowSum v5 v72 v78) shapeCasts_S12x197_S12x197x1)
      broadcasts_S12x197x1_S12x197x64)

/-- The stored payload is the output projection of the merged heads plus its bias, over the stages above. -/
private theorem pay1_stages (v3 : FVec Ideal S768x768 .bf16) (v5 : FVec Ideal S12x197x197 .f32)
    (v72 v76 : FVec Ideal S197x768 .f32) (v78 : FVec Ideal S12x197x64 .f32) (v106 : FVec Ideal S1x1x768 .f32) :
    k0_pay1 (F := Ideal) v3 v5 v72 v76 v78 v106
      = shapeCast S1x197x768
          (addf
            (matmul (F := Ideal) dot_S197x768_S768x768_S197x768_1_1_0_0_n_n none
              (truncf .bf16
                (shapeCast S197x768
                  (transpose S197x12x64 [1, 0, 2] (attended v5 v72 v76 v78) transposes_S12x197x64_p1_0_2_S197x12x64)
                  shapeCasts_S197x12x64_S197x768)
                bitsLt_bf16_f32)
              v3 (constant (F := Ideal) S197x768 .f32 0x00000000#32))
            (broadcastTo S197x768
              (shapeCast S1x768 (shapeCast S768 v106 shapeCasts_S1x1x768_S768) shapeCasts_S768_S1x768)
              broadcasts_S1x768_S197x768))
          shapeCasts_S197x768_S1x197x768 :=
  rfl

section stages

variable (w1 : FVec Ideal S2304x768 .bf16) (r4 : FVec Ideal S12x197x197 .f32) (xs : FVec Ideal S1x197x768 .f32)
  (qv vv : FVec Ideal S1x1x768 .f32)

/-- The logits of the second sample are the specification's. -/
private theorem logits_eq (h : Fin 12) (n m : Fin 197) :
    logits (k0_pay4 r4) (k0_pay10 (k0_pay2 w1) xs) (k0_pay12 (k0_pay2 w1) xs qv) (ix3 h n m)
      = S (Xk xs) (Wk w1) (bk qv) (Rk r4) h n m := by
  unfold logits S
  refine congrArg₂ (· + ·) ?_ ?_
  · refine (dot_scores _ _ h n m).trans ?_
    refine Finset.sum_congr rfl fun d _ => congrArg₂ (· * ·) ?_ ?_
    · unfold Q
      exact congrArg₂ (· * ·) (pay12_eq w1 xs qv h n d) rfl
    · exact (perHead_apply _ h m d).trans (pay10_eq w1 xs m h d)
  · unfold k0_pay4
    exact congrFun (shapeCast_self r4 _) (ix3 h n m)

private theorem rowMax_eq (h : Fin 12) (n : Fin 197) :
    rowMax (k0_pay4 r4) (k0_pay10 (k0_pay2 w1) xs) (k0_pay12 (k0_pay2 w1) xs qv) (ix2 h n)
      = Cert.Attn.M (Xk xs) (Wk w1) (bk qv) (Rk r4) h n := by
  unfold rowMax Cert.Attn.M
  refine (row_max _ _ _ _ h n).trans ?_
  exact congrArg (fun f => (Finset.univ : Finset (Fin 197)).fold max negInf f)
    (funext fun m => logits_eq w1 r4 xs qv h n m)

private theorem weights_eq (h : Fin 12) (n m : Fin 197) :
    weights (k0_pay4 r4) (k0_pay10 (k0_pay2 w1) xs) (k0_pay12 (k0_pay2 w1) xs qv) (ix3 h n m)
      = P (Xk xs) (Wk w1) (bk qv) (Rk r4) h n m := by
  unfold weights P
  exact congrArg Ideal.exp (congrArg₂ (· - ·) (logits_eq w1 r4 xs qv h n m)
    ((keep_bcast197 _ _ _ h n m).trans (rowMax_eq w1 r4 xs qv h n)))

private theorem rowSum_eq (h : Fin 12) (n : Fin 197) :
    rowSum (k0_pay4 r4) (k0_pay10 (k0_pay2 w1) xs) (k0_pay12 (k0_pay2 w1) xs qv) (ix2 h n)
      = L (Xk xs) (Wk w1) (bk qv) (Rk r4) h n := by
  unfold rowSum L
  refine (row_sum _ _ _ _ h n).trans ?_
  exact Finset.sum_congr rfl fun m _ => weights_eq w1 r4 xs qv h n m

private theorem attended_eq (h : Fin 12) (n : Fin 197) (d : Fin 64) :
    attended (k0_pay4 r4) (k0_pay10 (k0_pay2 w1) xs) (k0_pay11 (k0_pay2 w1) xs vv)
        (k0_pay12 (k0_pay2 w1) xs qv) (ix3 h n d)
      = attnAfter (Xk xs) (Wk w1) (bk qv) (bk vv) (Rk r4) h n d := by
  unfold attended attnAfter
  refine congrArg₂ Ideal.div ?_ ?_
  · refine (dot_pv _ _ h n d).trans ?_
    refine Finset.sum_congr rfl fun m _ => congrArg₂ (· * ·) (weights_eq w1 r4 xs qv h n m) ?_
    exact (perHead_apply _ h m d).trans (pay11_eq w1 xs vv m h d)
  · exact (keep_bcast64 _ _ _ h n d).trans (rowSum_eq w1 r4 xs qv h n)

end stages

/-- What is stored for the second sample. -/
theorem pay1_eq (w1 : FVec Ideal S2304x768 .bf16) (w5 : FVec Ideal S768x768 .bf16) (r4 : FVec Ideal S12x197x197 .f32)
    (xs : FVec Ideal S1x197x768 .f32) (qv vv pv : FVec Ideal S1x1x768 .f32) (n : Fin 197) (o : Fin 768) :
    k0_pay1 (F := Ideal) (k0_pay3 w5) (k0_pay4 r4) (k0_pay10 (k0_pay2 w1) xs) (k0_pay11 (k0_pay2 w1) xs vv)
        (k0_pay12 (k0_pay2 w1) xs qv) pv (ix3 0 n o)
      = outAfter (Xk xs) (Wk w1) (bk qv) (bk vv) (bk pv) (Rk r4) (PWk w5) n o := by
  rw [pay1_stages]
  refine (unsqueeze_rows _ _ n o).trans ?_
  unfold outAfter
  refine congrArg₂ (· + ·) ?_ (bias_rows pv _ _ _ n o)
  refine (dot_proj _ _ n o).trans ?_
  refine Finset.sum_congr rfl fun c _ => congrArg₂ (· * ·) ?_ ?_
  · refine (truncf_apply (ψ := .bf16) _ bitsLt_bf16_f32 (ix2 n c)).trans ?_
    refine (merge_heads _ _ n c).trans ?_
    refine (heads_back _ _ n (headOf c) (laneOf c)).trans ?_
    exact attended_eq w1 r4 xs qv vv (headOf c) n (laneOf c)
  · unfold k0_pay3
    exact congrFun (shapeCast_self w5 _) (ix2 o c)

end Cert.KerBridge

end
-- ==== Proof.KerArray.lean ====
/-
  The kernel's result array as ONE function of the arrays the region finds: grid point t stores the two samples
  2t and 2t+1, each the specification's output row of that sample, so entry (b, n, o) of the result is sample b's
  `outAfter … n o`; the 32 blocks of two samples tile the 64 samples.
-/
import proofs.«425020_j9560597201107_3_alg».proof.Proof.Gen.KernelIdeal.Value
import proofs.«425020_j9560597201107_3_alg».proof.Proof.AttnSpec
import proofs.«425020_j9560597201107_3_alg».proof.Proof.KerArgs
import proofs.«425020_j9560597201107_3_alg».proof.Proof.KerPay8
import proofs.«425020_j9560597201107_3_alg».proof.Proof.KerPay1
import Idealize.ShloMosaic.Lib.ValueIdx
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Cert.Attn Cert.KerBridge

/-- Where the second sample's rows sit in the two-sample block: one step down its first axis. -/
private theorem emb5 (n : Fin 197) (o : Fin 768) : r0_5.emb (ix3 (0 : Fin 1) n o) = ix3 (1 : Fin 2) n o := by
  funext a; apply Fin.ext
  match a with
  | ⟨0, _⟩ => rfl
  | ⟨1, _⟩ => show 0 + 1 * n.val = n.val; omega
  | ⟨2, _⟩ => show 0 + 1 * o.val = o.val; omega

/-- The first sample's rows sit at the block's origin. -/
private theorem emb3 (n : Fin 197) (o : Fin 768) : r0_3.emb (ix3 (0 : Fin 1) n o) = ix3 (0 : Fin 2) n o := by
  funext a; apply Fin.ext
  match a with
  | ⟨0, _⟩ => rfl
  | ⟨1, _⟩ => show 0 + 1 * n.val = n.val; omega
  | ⟨2, _⟩ => show 0 + 1 * o.val = o.val; omega

/-- The second sample's bias row in the two-row block. -/
private theorem emb6 (o : Fin 768) : r0_6.emb (ix3 (0 : Fin 1) (0 : Fin 1) o) = ix3 (1 : Fin 2) (0 : Fin 1) o := by
  funext a; apply Fin.ext
  match a with
  | ⟨0, _⟩ => rfl
  | ⟨1, _⟩ => rfl
  | ⟨2, _⟩ => show 0 + 1 * o.val = o.val; omega

/-- The first sample's bias row in the two-row block. -/
private theorem emb4 (o : Fin 768) : r0_4.emb (ix3 (0 : Fin 1) (0 : Fin 1) o) = ix3 (0 : Fin 2) (0 : Fin 1) o := by
  funext a; apply Fin.ext
  match a with
  | ⟨0, _⟩ => rfl
  | ⟨1, _⟩ => rfl
  | ⟨2, _⟩ => show 0 + 1 * o.val = o.val; omega

/-- The zero offsets of a whole-block load, as the constant function. -/
private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Sample j of a two-sample block: the specification's output row of that sample's rows and bias rows,
    with the whole weight, position-bias and projection blocks. -/
private abbrev blockRow (x0 : Vec Ideal S2x197x768 .f32) (x1 : Vec Ideal S2304x768 .bf16) (x2 x3 : Vec Ideal S2x1x768 .f32)
    (x4 : Vec Ideal S12x197x197 .f32) (x5 : Vec Ideal S768x768 .bf16) (x6 : Vec Ideal S2x1x768 .f32)
    (j : Fin 2) (n : Fin 197) (o : Fin 768) : EReal :=
  outAfter (fun n' c' => x0 (ix3 j n' c')) (fun o' c' => x1 (ix2 o' c'))
    (fun c' => x2 (ix3 j 0 c')) (fun c' => x3 (ix3 j 0 c')) (fun c' => x6 (ix3 j 0 c'))
    (fun h n' m' => x4 (ix3 h n' m')) (fun o' c' => x5 (ix2 o' c')) n o

/-- The store of the second sample: its payload is the specification's row of sample 1 of the block. -/
private theorem second_piece (x0 : Vec Ideal S2x197x768 .f32) (x1 : Vec Ideal S2304x768 .bf16) (x2 x3 : Vec Ideal S2x1x768 .f32)
    (x4 : Vec Ideal S12x197x197 .f32) (x5 : Vec Ideal S768x768 .bf16) (x6 : Vec Ideal S2x1x768 .f32)
    (n : Fin 197) (o : Fin 768) :
    k0_pay1 (F := Ideal) (k0_pay3 (View.ld x5 r0_1)) (k0_pay4 (View.ld x4 r0_2)) (k0_pay10 (k0_pay2 (View.ld x1 r0_0)) (View.ld x0 r0_5)) (k0_pay11 (k0_pay2 (View.ld x1 r0_0)) (View.ld x0 r0_5) (View.ld x3 r0_6)) (k0_pay12 (k0_pay2 (View.ld x1 r0_0)) (View.ld x0 r0_5) (View.ld x2 r0_6)) (View.ld x6 r0_6) (ix3 0 n o)
      = blockRow x0 x1 x2 x3 x4 x5 x6 1 n o := by
  refine (pay1_eq _ _ _ _ _ _ _ n o).trans ?_
  have hX : Xk (View.ld x0 r0_5) = fun n' c' => x0 (ix3 1 n' c') := by
    funext n' c'; show x0 (r0_5.emb (ix3 0 n' c')) = _; rw [emb5]
  have hq : bk (View.ld x2 r0_6) = fun c' => x2 (ix3 1 0 c') := by
    funext c'; show x2 (r0_6.emb (ix3 0 0 c')) = _; rw [emb6]
  have hv : bk (View.ld x3 r0_6) = fun c' => x3 (ix3 1 0 c') := by
    funext c'; show x3 (r0_6.emb (ix3 0 0 c')) = _; rw [emb6]
  have hp : bk (View.ld x6 r0_6) = fun c' => x6 (ix3 1 0 c') := by
    funext c'; show x6 (r0_6.emb (ix3 0 0 c')) = _; rw [emb6]
  rw [hX, hq, hv, hp, View.ld_unit_zero (S := S2304x768) zeros2, View.ld_unit_zero (S := S768x768) zeros2,
    View.ld_unit_zero (S := S12x197x197) zeros3]

/-- The store of the first sample: its payload is the specification's row of sample 0 of the block. -/
private theorem first_piece (x0 : Vec Ideal S2x197x768 .f32) (x1 : Vec Ideal S2304x768 .bf16) (x2 x3 : Vec Ideal S2x1x768 .f32)
    (x4 : Vec Ideal S12x197x197 .f32) (x5 : Vec Ideal S768x768 .bf16) (x6 : Vec Ideal S2x1x768 .f32)
    (n : Fin 197) (o : Fin 768) :
    k0_pay8 (F := Ideal) (k0_pay3 (View.ld x5 r0_1)) (k0_pay6 (View.ld x1 r0_0) (View.ld x0 r0_3) (View.ld x3 r0_4)) (k0_pay7 (View.ld x1 r0_0) (View.ld x4 r0_2) (View.ld x0 r0_3) (View.ld x2 r0_4)) (View.ld x6 r0_4) (ix3 0 n o)
      = blockRow x0 x1 x2 x3 x4 x5 x6 0 n o := by
  refine (pay8_eq _ _ _ _ _ _ _ n o).trans ?_
  have hX : Xk (View.ld x0 r0_3) = fun n' c' => x0 (ix3 0 n' c') := by
    funext n' c'; show x0 (r0_3.emb (ix3 0 n' c')) = _; rw [emb3]
  have hq : bk (View.ld x2 r0_4) = fun c' => x2 (ix3 0 0 c') := by
    funext c'; show x2 (r0_4.emb (ix3 0 0 c')) = _; rw [emb4]
  have hv : bk (View.ld x3 r0_4) = fun c' => x3 (ix3 0 0 c') := by
    funext c'; show x3 (r0_4.emb (ix3 0 0 c')) = _; rw [emb4]
  have hp : bk (View.ld x6 r0_4) = fun c' => x6 (ix3 0 0 c') := by
    funext c'; show x6 (r0_4.emb (ix3 0 0 c')) = _; rw [emb4]
  rw [hX, hq, hv, hp, View.ld_unit_zero (S := S2304x768) zeros2, View.ld_unit_zero (S := S768x768) zeros2,
    View.ld_unit_zero (S := S12x197x197) zeros3]

/-- An index of a one-sample slab has first coordinate 0. -/
private theorem eq_ix3_unit {n1 n2 : Nat} (x : (⟨3, ![1, n1, n2]⟩ : Shape).Idx) : x = ix3 (0 : Fin 1) (x 1) (x 2) := by
  funext a
  match a with
  | ⟨0, _⟩ => exact Fin.ext (Nat.lt_one_iff.mp (x 0).isLt)
  | ⟨1, _⟩ => rfl
  | ⟨2, _⟩ => rfl

/-- The block a grid point leaves, as one function of the block's index: both samples' specification rows.
    Each of the two stores writes one sample's slab of that function, and the two slabs tile the block. -/
private theorem out_apply (x0 : Vec Ideal S2x197x768 .f32) (x1 : Vec Ideal S2304x768 .bf16) (x2 x3 : Vec Ideal S2x1x768 .f32)
    (x4 : Vec Ideal S12x197x197 .f32) (x5 : Vec Ideal S768x768 .bf16) (x6 : Vec Ideal S2x1x768 .f32)
    (y : S2x197x768.Idx) :
    out0_7 x0 x1 x2 x3 x4 x5 x6 y = blockRow x0 x1 x2 x3 x4 x5 x6 (y 0) (y 1) (y 2) := by
  unfold out0_7
  refine View.canon_apply_of_pieces (Val := Elt Ideal) (S := S2x197x768) (e := .f32)
    (fun y : S2x197x768.Idx => blockRow x0 x1 x2 x3 x4 x5 x6 (y 0) (y 1) (y 2)) _ ?_ y (cover0_7 _ _ y)
  intro p hp
  simp only [List.mem_cons, List.mem_singleton, List.not_mem_nil, or_false] at hp
  rcases hp with rfl | rfl
  · intro x
    obtain ⟨n, o, rfl⟩ : ∃ (n : Fin 197) (o : Fin 768), x = ix3 (0 : Fin 1) n o := ⟨x 1, x 2, eq_ix3_unit x⟩
    dsimp only
    rw [emb5]
    exact second_piece x0 x1 x2 x3 x4 x5 x6 n o
  · intro x
    obtain ⟨n, o, rfl⟩ : ∃ (n : Fin 197) (o : Fin 768), x = ix3 (0 : Fin 1) n o := ⟨x 1, x 2, eq_ix3_unit x⟩
    dsimp only
    rw [emb3]
    exact first_piece x0 x1 x2 x3 x4 x5 x6 n o

variable (m : (ℓ : Loc nD τ sig) → Buf (Elt Ideal) ℓ) (ρ : Dev nD → PrngReg)

/-- Sample b's output row (n, o), from the arrays as the region finds them. -/
def row (c : Dev nD) (b : Fin 64) (n : Fin 197) (o : Fin 768) : EReal :=
  outAfter (fun n' c' => V m c main_arg0 (ix3 b n' c')) (fun o' c' => V m c main_v34 (ix2 o' c'))
    (fun c' => V m c main_v7 (ix3 b 0 c')) (fun c' => V m c main_v15 (ix3 b 0 c')) (fun c' => V m c main_v23 (ix3 b 0 c'))
    (fun h n' m' => V m c main_v33 (ix3 h n' m')) (fun o' c' => V m c main_v35 (ix2 o' c')) n o

/-- The whole result array. -/
def G (c : Dev nD) : Buf (Elt Ideal) ((c : Thread nD τ).loc main_v36) := fun i => row m c (i 0) (i 1) (i 2)

/-- The printed index maps over the 32 grid points: the sample windows and the result window sit at block t along
    the sample axis and at block 0 along the others; the weight, position-bias and projection windows at block 0. -/
private theorem idx_facts : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

/-- The rows window's block at point t holds samples 2t and 2t+1 of the rows array. -/
private theorem rows_blk (c : Dev nD) (t : Fin cfg0.N) (j : Fin 2) (n : Fin 197) (k : Fin 768) (b : Fin 64)
    (hb : b.val = 2 * t.val + j.val) :
    (iblk m c 0 t : Vec Ideal S2x197x768 .f32) (ix3 j n k) = V m c main_arg0 (ix3 b n k) := by
  obtain ⟨-, -, -, e0, e1, e2, -⟩ := idx_facts t
  unfold iblk
  rw [View.read_apply]
  show V m c main_arg0 _ = V m c main_arg0 _
  congr 1
  funext a; apply Fin.ext
  match a with
  | ⟨0, _⟩ => show win0_0.index t (0 : Fin 3) * 2 + 1 * j.val = b.val; omega
  | ⟨1, _⟩ => show win0_0.index t (1 : Fin 3) * 197 + 1 * n.val = n.val; omega
  | ⟨2, _⟩ => show win0_0.index t (2 : Fin 3) * 768 + 1 * k.val = k.val; omega

/-- A bias-row window's block at point t holds rows 2t and 2t+1 of its array (the query bias, the value bias
    and the output bias are staged the same way). -/
private theorem qbias_blk (c : Dev nD) (t : Fin cfg0.N) (j : Fin 2) (k : Fin 768) (b : Fin 64)
    (hb : b.val = 2 * t.val + j.val) :
    (iblk m c 2 t : Vec Ideal S2x1x768 .f32) (ix3 j 0 k) = V m c main_v7 (ix3 b 0 k) := by
  obtain ⟨-, -, -, -, -, -, e0, e1, e2, -⟩ := idx_facts t
  unfold iblk
  rw [View.read_apply]
  show V m c main_v7 _ = V m c main_v7 _
  congr 1
  funext a; apply Fin.ext
  match a with
  | ⟨0, _⟩ => show win0_2.index t (0 : Fin 3) * 2 + 1 * j.val = b.val; omega
  | ⟨1, _⟩ => show win0_2.index t (1 : Fin 3) * 1 + 1 * 0 = 0; omega
  | ⟨2, _⟩ => show win0_2.index t (2 : Fin 3) * 768 + 1 * k.val = k.val; omega

private theorem vbias_blk (c : Dev nD) (t : Fin cfg0.N) (j : Fin 2) (k : Fin 768) (b : Fin 64)
    (hb : b.val = 2 * t.val + j.val) :
    (iblk m c 3 t : Vec Ideal S2x1x768 .f32) (ix3 j 0 k) = V m c main_v15 (ix3 b 0 k) := by
  obtain ⟨-, -, -, -, -, -, -, -, -, e0, e1, e2, -⟩ := idx_facts t
  unfold iblk
  rw [View.read_apply]
  show V m c main_v15 _ = V m c main_v15 _
  congr 1
  funext a; apply Fin.ext
  match a with
  | ⟨0, _⟩ => show win0_3.index t (0 : Fin 3) * 2 + 1 * j.val = b.val; omega
  | ⟨1, _⟩ => show win0_3.index t (1 : Fin 3) * 1 + 1 * 0 = 0; omega
  | ⟨2, _⟩ => show win0_3.index t (2 : Fin 3) * 768 + 1 * k.val = k.val; omega

private theorem pbias_blk (c : Dev nD) (t : Fin cfg0.N) (j : Fin 2) (k : Fin 768) (b : Fin 64)
    (hb : b.val = 2 * t.val + j.val) :
    (iblk m c 6 t : Vec Ideal S2x1x768 .f32) (ix3 j 0 k) = V m c main_v23 (ix3 b 0 k) := by
  obtain ⟨-, -, -, -, -, -, -, -, -, -, -, -, e0, e1, e2, -⟩ := idx_facts t
  unfold iblk
  rw [View.read_apply]
  show V m c main_v23 _ = V m c main_v23 _
  congr 1
  funext a; apply Fin.ext
  match a with
  | ⟨0, _⟩ => show win0_6.index t (0 : Fin 3) * 2 + 1 * j.val = b.val; omega
  | ⟨1, _⟩ => show win0_6.index t (1 : Fin 3) * 1 + 1 * 0 = 0; omega
  | ⟨2, _⟩ => show win0_6.index t (2 : Fin 3) * 768 + 1 * k.val = k.val; omega

/-- The joint projection weight is staged whole at every point. -/
private theorem weight_blk (c : Dev nD) (t : Fin cfg0.N) (o : Fin 2304) (k : Fin 768) :
    (iblk m c 1 t : Vec Ideal S2304x768 .bf16) (ix2 o k) = V m c main_v34 (ix2 o k) := by
  obtain ⟨-, -, -, -, -, -, -, -, -, -, -, -, -, -, -, e0, e1, -⟩ := idx_facts t
  unfold iblk
  rw [View.read_apply]
  show V m c main_v34 _ = V m c main_v34 _
  congr 1
  funext a; apply Fin.ext
  match a with
  | ⟨0, _⟩ => show win0_1.index t (0 : Fin 2) * 2304 + 1 * o.val = o.val; omega
  | ⟨1, _⟩ => show win0_1.index t (1 : Fin 2) * 768 + 1 * k.val = k.val; omega

/-- The relative-position bias is staged whole at every point. -/
private theorem relpos_blk (c : Dev nD) (t : Fin cfg0.N) (h : Fin 12) (n n' : Fin 197) :
    (iblk m c 4 t : Vec Ideal S12x197x197 .f32) (ix3 h n n') = V m c main_v33 (ix3 h n n') := by
  obtain ⟨-, -, -, -, -, -, -, -, -, -, -, -, -, -, -, -, -, e0, e1, e2, -⟩ := idx_facts t
  unfold iblk
  rw [View.read_apply]
  show V m c main_v33 _ = V m c main_v33 _
  congr 1
  funext a; apply Fin.ext
  match a with
  | ⟨0, _⟩ => show win0_4.index t (0 : Fin 3) * 12 + 1 * h.val = h.val; omega
  | ⟨1, _⟩ => show win0_4.index t (1 : Fin 3) * 197 + 1 * n.val = n.val; omega
  | ⟨2, _⟩ => show win0_4.index t (2 : Fin 3) * 197 + 1 * n'.val = n'.val; omega

/-- The output projection weight is staged whole at every point. -/
private theorem proj_blk (c : Dev nD) (t : Fin cfg0.N) (o k : Fin 768) :
    (iblk m c 5 t : Vec Ideal S768x768 .bf16) (ix2 o k) = V m c main_v35 (ix2 o k) := by
  obtain ⟨-, -, -, -, -, -, -, -, -, -, -, -, -, -, -, -, -, -, -, -, e0, e1⟩ := idx_facts t
  unfold iblk
  rw [View.read_apply]
  show V m c main_v35 _ = V m c main_v35 _
  congr 1
  funext a; apply Fin.ext
  match a with
  | ⟨0, _⟩ => show win0_5.index t (0 : Fin 2) * 768 + 1 * o.val = o.val; omega
  | ⟨1, _⟩ => show win0_5.index t (1 : Fin 2) * 768 + 1 * k.val = k.val; omega

/-- Sample j of point t's blocks is sample 2t + j of the arrays. -/
private theorem point_row (c : Dev nD) (t : Fin cfg0.N) (j : Fin 2) (n : Fin 197) (o : Fin 768) (b : Fin 64)
    (hb : b.val = 2 * t.val + j.val) :
    blockRow (iblk m c 0 t) (iblk m c 1 t) (iblk m c 2 t) (iblk m c 3 t) (iblk m c 4 t) (iblk m c 5 t) (iblk m c 6 t) j n o
      = row m c b n o := by
  unfold row
  have e0 : (fun n' c' => (iblk m c 0 t : Vec Ideal S2x197x768 .f32) (ix3 j n' c')) = fun n' c' => V m c main_arg0 (ix3 b n' c') :=
    funext fun n' => funext fun c' => rows_blk m c t j n' c' b hb
  have e1 : (fun o' c' => (iblk m c 1 t : Vec Ideal S2304x768 .bf16) (ix2 o' c')) = fun o' c' => V m c main_v34 (ix2 o' c') :=
    funext fun o' => funext fun c' => weight_blk m c t o' c'
  have e2 : (fun c' => (iblk m c 2 t : Vec Ideal S2x1x768 .f32) (ix3 j 0 c')) = fun c' => V m c main_v7 (ix3 b 0 c') :=
    funext fun c' => qbias_blk m c t j c' b hb
  have e3 : (fun c' => (iblk m c 3 t : Vec Ideal S2x1x768 .f32) (ix3 j 0 c')) = fun c' => V m c main_v15 (ix3 b 0 c') :=
    funext fun c' => vbias_blk m c t j c' b hb
  have e6 : (fun c' => (iblk m c 6 t : Vec Ideal S2x1x768 .f32) (ix3 j 0 c')) = fun c' => V m c main_v23 (ix3 b 0 c') :=
    funext fun c' => pbias_blk m c t j c' b hb
  have e4 : (fun h n' m' => (iblk m c 4 t : Vec Ideal S12x197x197 .f32) (ix3 h n' m')) = fun h n' m' => V m c main_v33 (ix3 h n' m') :=
    funext fun h => funext fun n' => funext fun m' => relpos_blk m c t h n' m'
  have e5 : (fun o' c' => (iblk m c 5 t : Vec Ideal S768x768 .bf16) (ix2 o' c')) = fun o' c' => V m c main_v35 (ix2 o' c') :=
    funext fun o' => funext fun c' => proj_blk m c t o' c'
  show outAfter _ _ _ _ _ _ _ n o = _
  rw [e0, e1, e2, e3, e6, e4, e5]

/-- What point t writes back is block t of the result array `G`. -/
private theorem flushed_eq (c : Dev nD) (t : Fin cfg0.N) :
    (dats m 0 c).flushed 7 t = ((cfg0.win 7).blk t).view.read (Elt Ideal) (G m c) := by
  rw [Value.flushed7]
  obtain ⟨e0, e1, e2, -⟩ := idx_facts t
  funext y
  rw [View.read_apply]
  show out0_7 _ _ _ _ _ _ _ y = G m c (((cfg0.win 7).blk t).view.emb y)
  refine (out_apply _ _ _ _ _ _ _ y).trans ?_
  have h0 : ((((cfg0.win 7).blk t).view.emb y) 0).val = 2 * t.val + (y 0).val := by
    show win0_7.index t (0 : Fin 3) * 2 + 1 * (y 0).val = _; omega
  have h1 : (((cfg0.win 7).blk t).view.emb y) 1 = y 1 :=
    Fin.ext (by show win0_7.index t (1 : Fin 3) * 197 + 1 * (y 1).val = (y 1).val; omega)
  have h2 : (((cfg0.win 7).blk t).view.emb y) 2 = y 2 :=
    Fin.ext (by show win0_7.index t (2 : Fin 3) * 768 + 1 * (y 2).val = (y 2).val; omega)
  show _ = row m c _ _ _
  rw [h1, h2]
  exact point_row m c t (y 0) (y 1) (y 2) _ h0

/-- An index of the result array is in point t's block iff each coordinate is in the block's range on its axis. -/
private theorem mem_blk (t : Fin cfg0.N) (i : S64x197x768.Idx) :
    i ∈ ((cfg0.win 7).blk t).view.set ↔ ∀ a : Fin 3, win0_7.index t a * S2x197x768.size a ≤ (i a).val ∧ (i a).val < win0_7.index t a * S2x197x768.size a + S2x197x768.size a := by
  show i ∈ ((View.whole main_v36).slice (win0_7.rect t)).set ↔ _
  rw [View.set_slice_whole, Rect.mem_set_unit]
  exact Iff.rfl

/-- The 32 blocks of two samples tile the 64 samples: sample b lies in the block of point b / 2. -/
private theorem cover (i : S64x197x768.Idx) :
    ∃ t : Fin cfg0.N, (cfg0.win 7).flush t = true ∧ i ∈ ((cfg0.win 7).blk t).view.set := by
  have hi0 : (i 0).val < 64 := (i 0).isLt
  have hi1 : (i 1).val < 197 := (i 1).isLt
  have hi2 : (i 2).val < 768 := (i 2).isLt
  have hN : (i 0).val / 2 < cfg0.N := by show (i 0).val / 2 < 32; omega
  refine ⟨⟨(i 0).val / 2, hN⟩, flush0_7 _, ?_⟩
  obtain ⟨e0, e1, e2, -⟩ := idx_facts ⟨(i 0).val / 2, hN⟩
  have e0' : win0_7.index ⟨(i 0).val / 2, hN⟩ (0 : Fin 3) = (i 0).val / 2 := e0
  rw [mem_blk]
  intro a
  match a with
  | ⟨0, _⟩ => show win0_7.index ⟨(i 0).val / 2, hN⟩ (0 : Fin 3) * 2 ≤ (i 0).val ∧ (i 0).val < win0_7.index ⟨(i 0).val / 2, hN⟩ (0 : Fin 3) * 2 + 2; omega
  | ⟨1, _⟩ => show win0_7.index ⟨(i 0).val / 2, hN⟩ (1 : Fin 3) * 197 ≤ (i 1).val ∧ (i 1).val < win0_7.index ⟨(i 0).val / 2, hN⟩ (1 : Fin 3) * 197 + 197; omega
  | ⟨2, _⟩ => show win0_7.index ⟨(i 0).val / 2, hN⟩ (2 : Fin 3) * 768 ≤ (i 2).val ∧ (i 2).val < win0_7.index ⟨(i 0).val / 2, hN⟩ (2 : Fin 3) * 768 + 768; omega

/-- The result array after the run is `G`. -/
private theorem final (c : Dev nD) : (dats m 0 c).arrAt 7 cfg0.N = G m c :=
  (dats m 0 c).arrAt_eq_of_cover 7 (G m c) (fun t _ => flushed_eq m c t) cover

/-- The kernel's run ends with the result array at `G` and the arguments unchanged. -/
theorem run : θ_run defs (onTc (τ := τ) (main (F := Ideal))) ⟨m, fun _ => 0, ρ⟩ fun r => ∀ c : Dev nD,
      r.2.mem ((c : Thread nD τ).loc main_v36) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Arr

end
-- ==== Proof.Glue.lean ====
/-
  What the region finds in the arrays the host operations wrote before it: the two weights are the arguments
  themselves (the change of float format is the identity on the extended reals), and the gathered bias rows and the
  gathered relative-position bias are the very terms the reference computes from the same arguments — the same
  operations in the same order, so the gathers are never opened.
-/
import proofs.«425020_j9560597201107_3_alg».proof.Proof.Gen.KernelIdeal.Frame
import proofs.«425020_j9560597201107_3_alg».proof.Proof.Gen.ReferenceIdeal.Read
import Idealize.ShloMosaic.Lib.StableHlo.Run
import Idealize.ShloMosaic.Lib.ValueIdx

noncomputable section

namespace Cert.Glue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The joint projection weight as the region finds it: the argument itself. -/
theorem V_v34 (c : Dev nD) : (V m c main_v34 : S2304x768.Idx → EReal) = m ((c : Thread nD τ).loc main_arg1) := by
  dsimp only [Gen.V, Gen.hostOps0]; after_results; rfl

/-- The output projection weight: the argument itself. -/
theorem V_v35 (c : Dev nD) : (V m c main_v35 : S768x768.Idx → EReal) = m ((c : Thread nD τ).loc main_arg5) := by
  dsimp only [Gen.V, Gen.hostOps0]; after_results; rfl

/-- The query bias rows: the reference's gathered rows of the same table by the same indices. -/
theorem V_v7 (c : Dev nD) : (V m c main_v7 : S64x1x768.Idx → EReal)
    = Cert.ReferenceIdeal.Read.val_main_v8 (F := Ideal) (m ((c : Thread nD τ).loc main_arg2)) (m ((c : Thread nD τ).loc main_arg7)) := by
  dsimp only [Gen.V, Gen.hostOps0]; after_results; rfl

set_option maxHeartbeats 4000000 in
/-- The value bias rows. -/
theorem V_v15 (c : Dev nD) : (V m c main_v15 : S64x1x768.Idx → EReal)
    = Cert.ReferenceIdeal.Read.val_main_v16 (F := Ideal) (m ((c : Thread nD τ).loc main_arg3)) (m ((c : Thread nD τ).loc main_arg7)) := by
  dsimp only [Gen.V, Gen.hostOps0]; after_results; rfl

set_option maxHeartbeats 4000000 in
/-- The output bias rows. -/
theorem V_v23 (c : Dev nD) : (V m c main_v23 : S64x1x768.Idx → EReal)
    = Cert.ReferenceIdeal.Read.val_main_v67 (F := Ideal) (m ((c : Thread nD τ).loc main_arg6)) (m ((c : Thread nD τ).loc main_arg7)) := by
  dsimp only [Gen.V, Gen.hostOps0]; after_results; rfl

set_option maxHeartbeats 4000000 in
/-- The relative-position bias. -/
theorem V_v33 (c : Dev nD) : (V m c main_v33 : S12x197x197.Idx → EReal)
    = Cert.ReferenceIdeal.Read.val_main_v41 (F := Ideal) (m ((c : Thread nD τ).loc main_arg4)) (m ((c : Thread nD τ).loc main_arg8)) := by
  dsimp only [Gen.V, Gen.hostOps0]; after_results; rfl

end Cert.Glue

end
-- ==== Proof.Finite.lean ====
/-
  From the precondition (every float input finite) to: every entry of the seven float arguments is a real number.
-/
import proofs.«425020_j9560597201107_3_alg».proof.Defs
import proofs.«425020_j9560597201107_3_alg».proof.Proof.Gen.KernelIdeal
import proofs.«425020_j9560597201107_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.SL.Sem Cert.KernelIdeal

/-- The f32 bit pattern of +∞ reads, in the extended reals, as the top element. -/
private theorem inf_bits : Ideal.ofBits .f32 0x7F800000#32 = (⊤ : EReal) := by
  simp [Ideal.ofBits, Ideal.ieee]

/-- An extended real x with max x (-x) < ⊤ is neither ⊥ (then -x = ⊤) nor ⊤, hence a real number. -/
private theorem real_of_abs_olt (x : EReal)
    (h : Ideal.cmp .olt (max x (-x)) (Ideal.ofBits .f32 0x7F800000#32) = 1#1) : ∃ r : ℝ, x = (r : EReal) := by
  rw [inf_bits] at h
  induction x using EReal.rec with
  | bot => exact absurd h (by simp [Ideal.cmp])
  | top => exact absurd h (by simp [Ideal.cmp])
  | coe r => exact ⟨r, rfl⟩

/-- If the conjunction, over all entries of an array x, of "|x i| < +∞" is true, then every entry of x is a
    real number: a conjunction that is true has only true members, and the member at i is the comparison
    max (x i) (-(x i)) < ⊤. -/
private theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (⟨0, ![]⟩ : Shape) .f32 0x7F800000#32)))
        (constantI (⟨0, ![]⟩ : Shape) 1 1#1) hr hu ValueIdx.ix0 = 1#1) :
    ∀ i, ∃ r : ℝ, x i = (r : EReal) := by
  intro i
  haveI : Subsingleton (⟨0, ![]⟩ : Shape).Idx := ⟨fun a b => funext fun d => d.elim0⟩
  exact real_of_abs_olt (x i) (Host.reduce_andi_all _ _ hr hu ValueIdx.ix0 e i)

/-- Under the precondition every entry of each float argument of the idealized kernel is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal)) := by
  -- the precondition read at the one index of its rank-0 result: a conjunction of seven conjunctions
  have h0 := congrFun (h c) ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ _ e0, real_of_all _ _ _ _ e1, real_of_all _ _ _ _ e2, real_of_all _ _ _ _ e3,
    real_of_all _ _ _ _ e4, real_of_all _ _ _ _ e5, real_of_all _ _ _ _ e6⟩

end Cert.Finite

end
-- ==== Proof.lean ====
/-
  The five claims.

  Frames: the kernel's two frames are the generated frame certificates; the reference's is its generated run with
  the result dropped.  Preserves: the two entries of the idealization's ledger, both the rule "widening what was just
  narrowed is the identity" at the [12,197,197] exponentials.

  Algebraic: at the ideal values the kernel's result array is, entry (b, n, o), sample b's output row of the
  specification with the attention normalised AFTER the product with the values (the value of the kernel's run), and
  the reference's is the same row with the attention normalised BEFORE it (the reference's run, read index by index).
  Both read the same arguments: the reference's memory agrees with the kernel's on them, the weights the region finds
  are the arguments themselves, and the gathered bias rows and relative-position bias are one term on both sides.
  Under the precondition every float entry is a real number, where the two normalisations agree.
-/
import proofs.«425020_j9560597201107_3_alg».proof.Defs
import proofs.«425020_j9560597201107_3_alg».proof.Proof.Gen.Kernel
import proofs.«425020_j9560597201107_3_alg».proof.Proof.Gen.Kernel.Frame
import proofs.«425020_j9560597201107_3_alg».proof.Proof.Gen.KernelIdeal
import proofs.«425020_j9560597201107_3_alg».proof.Proof.Gen.KernelIdeal.Frame
import proofs.«425020_j9560597201107_3_alg».proof.Proof.Gen.KernelIdeal.Value
import proofs.«425020_j9560597201107_3_alg».proof.Proof.Gen.ReferenceIdeal
import proofs.«425020_j9560597201107_3_alg».proof.Proof.Gen.ReferenceIdeal.Run
import proofs.«425020_j9560597201107_3_alg».proof.Proof.Gen.ReferenceIdeal.Read
import proofs.«425020_j9560597201107_3_alg».proof.Proof.Gen.Pre_finite_inputs
import proofs.«425020_j9560597201107_3_alg».proof.Proof.AttnSpec
import proofs.«425020_j9560597201107_3_alg».proof.Proof.AttnLaw
import proofs.«425020_j9560597201107_3_alg».proof.Proof.RefArgs
import proofs.«425020_j9560597201107_3_alg».proof.Proof.RefOut
import proofs.«425020_j9560597201107_3_alg».proof.Proof.KerArray
import proofs.«425020_j9560597201107_3_alg».proof.Proof.Glue
import proofs.«425020_j9560597201107_3_alg».proof.Proof.Finite
import Idealize.ShloMosaic.PureOps.IdealRules
import Idealize.ShloMosaic.Lib.ValueIdx

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: narrowing the exponentials to bf16 and widening them back is, at the ideal values,
    the identity. -/
theorem preserves : Cert.preserves_Kernel_KernelIdeal :=
  ⟨IdealRules.truncf_extf.statement _ _ _, IdealRules.truncf_extf.statement _ _ _⟩

/-- Sample b's output row from the reference's stages is the kernel's, once every entry is real. -/
theorem algebraic : Cert.algebraic_KernelIdeal_ReferenceIdeal := by
  intro m ρ m' ρ' hpre hagree
  refine ⟨fun c => Cert.KernelIdeal.Arr.G m c, Cert.KernelIdeal.Arr.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8⟩ := hagree c
  obtain ⟨r0, r1, r2, r3, r4, r5, r6⟩ := Cert.Finite.real_of_pre m hpre c
  rw [Cert.ReferenceIdeal.Read.val_main_v69_eq, h0, h1, h2, h3, h4, h5, h6, h7, h8]
  funext i
  obtain ⟨b, n, o, rfl⟩ : ∃ (b : Fin 64) (n : Fin 197) (o : Fin 768), i = ix3 b n o := ⟨i 0, i 1, i 2, eq_ix3 i⟩
  rw [Cert.RefBridge.ref_out]
  show _ = Cert.KernelIdeal.Arr.row m c b n o
  unfold Cert.KernelIdeal.Arr.row
  rw [Cert.Glue.V_v34, Cert.Glue.V_v35, Cert.Glue.V_v7, Cert.Glue.V_v15, Cert.Glue.V_v23, Cert.Glue.V_v33,
    Cert.KernelIdeal.Gen.V_main_arg0]
  refine (congrFun (congrFun (Cert.Attn.outAfter_eq_outBefore _ _ _ _ _ _ _ ?_ ?_ ?_ ?_ ?_) n) o).symm
  · exact fun n' c' => r0 _
  · exact fun o' c' => r1 _
  · -- a gathered row is a row of the table
    intro c'
    unfold Cert.RefBridge.qbr Cert.ReferenceIdeal.Read.val_main_v8 Cert.ReferenceIdeal.Read.val_main_v7
    exact r2 _
  · intro c'
    unfold Cert.RefBridge.vbr Cert.ReferenceIdeal.Read.val_main_v16 Cert.ReferenceIdeal.Read.val_main_v15
    exact r3 _
  · intro h' n' m''
    unfold Cert.RefBridge.Rr Cert.ReferenceIdeal.Read.val_main_v41 Cert.ReferenceIdeal.Read.val_main_v40
      Cert.ReferenceIdeal.Read.val_main_v39
    exact r4 _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
